-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000x128 : Shape := ⟨2, ![600000, 128]⟩
abbrev S4x128 : Shape := ⟨2, ![4, 128]⟩
abbrev S4 : Shape := ⟨1, ![4]⟩
abbrev S600000 : Shape := ⟨1, ![600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S4x128 : S_.BroadcastsInDim S4x128 (![] : Fin 0 → Fin S4x128.rank)
  reducesTo_S4x128_S_d0_1 : S4x128.ReducesTo [0, 1] S_
  bcast_S_S4 : S_.BroadcastsInDim S4 (![] : Fin 0 → Fin S4.rank)
  reducesTo_S4_S_d0 : S4.ReducesTo [0] S_
  bcast_S_S600000 : S_.BroadcastsInDim S600000 (![] : Fin 0 → Fin S600000.rank)
  reducesTo_S600000_S_d0 : S600000.ReducesTo [0] S_

variable [Facts]

def fn_part1 {F : FTy → Type} [FloatOps F] (main_arg4 : IVec S600000 32) (main_arg5 : IVec S600000 32) (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  let main_c_6 : IVec S_ 32 := constantI S_ 32 0#32
  let main_v19 : IVec S600000 32 := broadcastInDim S600000 ![] bcast_S_S600000 main_c_6
  let main_v20 : IVec S600000 1 := cmpi .sge main_arg4 main_v19
  let main_c_7 : IVec S_ 32 := constantI S_ 32 100000#32
  let main_v21 : IVec S600000 32 := broadcastInDim S600000 ![] bcast_S_S600000 main_c_7
  let main_v22 : IVec S600000 1 := cmpi .slt main_arg4 main_v21
  let main_v23 : IVec S600000 1 := andi main_v20 main_v22
  let main_c_8 : IVec S_ 1 := constantI S_ 1 1#1
  let main_v24 : IVec S_ 1 := (fun x v => Host.reduce IntOp.andi x v reducesTo_S600000_S_d0 h_S_) main_v23 main_c_8
  let main_v25 : IVec S_ 1 := andi main_v18 main_v24
  let main_c_9 : IVec S_ 32 := constantI S_ 32 0#32
  let main_v26 : IVec S600000 32 := broadcastInDim S600000 ![] bcast_S_S600000 main_c_9
  let main_v27 : IVec S600000 1 := cmpi .sge main_arg5 main_v26
  let main_c_10 : IVec S_ 32 := constantI S_ 32 100000#32
  let main_v28 : IVec S600000 32 := broadcastInDim S600000 ![] bcast_S_S600000 main_c_10
  let main_v29 : IVec S600000 1 := cmpi .slt main_arg5 main_v28
  let main_v30 : IVec S600000 1 := andi main_v27 main_v29
  let main_c_11 : IVec S_ 1 := constantI S_ 1 1#1
  let main_v31 : IVec S_ 1 := (fun x v => Host.reduce IntOp.andi x v reducesTo_S600000_S_d0 h_S_) main_v30 main_c_11
  let main_v32 : IVec S_ 1 := andi main_v25 main_v31
  main_v32

def fn {F : FTy → Type} [FloatOps F] (main_arg0 : FVec F S100000x128 .f32) (main_arg1 : FVec F S600000x128 .f32) (main_arg2 : FVec F S4x128 .f32) (main_arg3 : FVec F S4 .f32) (main_arg4 : IVec S600000 32) (main_arg5 : IVec S600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S4x128 .f32 := Host.absf main_arg2
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4 .f32 := Host.absf main_arg3
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_arg4 main_arg5 main_v13 main_v16
-- ==== Kernel.lean ====
abbrev S100000x128 : Shape := ⟨2, ![100000, 128]⟩
abbrev S600000x128 : Shape := ⟨2, ![600000, 128]⟩
abbrev S4x128 : Shape := ⟨2, ![4, 128]⟩
abbrev S4 : Shape := ⟨1, ![4]⟩
abbrev S600000 : Shape := ⟨1, ![600000]⟩
abbrev S128x4 : Shape := ⟨2, ![128, 4]⟩
abbrev S100000x4 : Shape := ⟨2, ![100000, 4]⟩
abbrev S20000x128 : Shape := ⟨2, ![20000, 128]⟩
abbrev S20000x4 : Shape := ⟨2, ![20000, 4]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S600000x4 : Shape := ⟨2, ![600000, 4]⟩
abbrev S20000x1 : Shape := ⟨2, ![20000, 1]⟩
abbrev S1x4 : Shape := ⟨2, ![1, 4]⟩
abbrev S20000 : Shape := ⟨1, ![20000]⟩

abbrev nBuf : Space → Nat
  | .hbm => 71
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S600000x128, .f32⟩
  | .hbm, ⟨2, _⟩ => ⟨S4x128, .f32⟩
  | .hbm, ⟨3, _⟩ => ⟨S4, .f32⟩
  | .hbm, ⟨4, _⟩ => ⟨S600000, .i32⟩
  | .hbm, ⟨5, _⟩ => ⟨S600000, .i32⟩
  | .hbm, ⟨6, _⟩ => ⟨S128x4, .f32⟩
  | .hbm, ⟨7, _⟩ => ⟨S100000x4, .f32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S600000, .i32⟩
  | .hbm, ⟨12, _⟩ => ⟨S600000, .i32⟩
  | .hbm, ⟨13, _⟩ => ⟨S_, .i32⟩
  | .hbm, ⟨14, _⟩ => ⟨S600000, .i32⟩
  | .hbm, ⟨15, _⟩ => ⟨S600000, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S_, .i32⟩
  | .hbm, ⟨22, _⟩ => ⟨S600000, .i32⟩
  | .hbm, ⟨23, _⟩ => ⟨S600000, .i32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S1, .i32⟩
  | .hbm, ⟨33, _⟩ => ⟨S_, .i32⟩
  | .hbm, ⟨34, _⟩ => ⟨S600000x1, .i32⟩
  | .hbm, ⟨35, _⟩ => ⟨S600000x1, .i1⟩
  | .hbm, ⟨36, _⟩ => ⟨S1x1, .i32⟩
  | .hbm, ⟨37, _⟩ => ⟨S600000x1, .i32⟩
  | .hbm, ⟨38, _⟩ => ⟨S600000x1, .i1⟩
  | .hbm, ⟨39, _⟩ => ⟨S600000x1, .i1⟩
  | .hbm, ⟨40, _⟩ => ⟨S_, .i1⟩
  | .hbm, ⟨41, _⟩ => ⟨S600000, .i1⟩
  | .hbm, ⟨42, _⟩ => ⟨S600000x4, .f32⟩
  | .hbm, ⟨43, _⟩ => ⟨S600000x4, .i1⟩
  | .hbm, ⟨44, _⟩ => ⟨S_, .f32⟩
  | .hbm, ⟨45, _⟩ => ⟨S600000x4, .f32⟩
  | .hbm, ⟨46, _⟩ => ⟨S600000x4, .f32⟩
  | .hbm, ⟨47, _⟩ => ⟨S_, .i32⟩
  | .hbm, ⟨48, _⟩ => ⟨S600000, .i32⟩
  | .hbm, ⟨49, _⟩ => ⟨S600000, .i1⟩
  | .hbm, ⟨50, _⟩ => ⟨S_, .i32⟩
  | .hbm, ⟨51, _⟩ => ⟨S600000, .i32⟩
  | .hbm, ⟨52, _⟩ => ⟨S600000, .i32⟩
  | .hbm, ⟨53, _⟩ => ⟨S600000, .i32⟩
  | .hbm, ⟨54, _⟩ => ⟨S600000x1, .i32⟩
  | .hbm, ⟨55, _⟩ => ⟨S1, .i32⟩
  | .hbm, ⟨56, _⟩ => ⟨S_, .i32⟩
  | .hbm, ⟨57, _⟩ => ⟨S600000x1, .i32⟩
  | .hbm, ⟨58, _⟩ => ⟨S600000x1, .i1⟩
  | .hbm, ⟨59, _⟩ => ⟨S1x1, .i32⟩
  | .hbm, ⟨60, _⟩ => ⟨S600000x1, .i32⟩
  | .hbm, ⟨61, _⟩ => ⟨S600000x1, .i1⟩
  | .hbm, ⟨62, _⟩ => ⟨S600000x1, .i1⟩
  | .hbm, ⟨63, _⟩ => ⟨S_, .i1⟩
  | .hbm, ⟨64, _⟩ => ⟨S600000, .i1⟩
  | .hbm, ⟨65, _⟩ => ⟨S600000x4, .f32⟩
  | .hbm, ⟨66, _⟩ => ⟨S600000x4, .i1⟩
  | .hbm, ⟨67, _⟩ => ⟨S_, .f32⟩
  | .hbm, ⟨68, _⟩ => ⟨S600000x4, .f32⟩
  | .hbm, ⟨69, _⟩ => ⟨S600000x4, .f32⟩
  | .hbm, ⟨70, _⟩ => ⟨S600000x1, .f32⟩
  | .local _ .vmem, ⟨0, _⟩ => ⟨S20000x128, .f32⟩
  | .local _ .vmem, ⟨1, _⟩ => ⟨S20000x128, .f32⟩
  | .local _ .vmem, ⟨2, _⟩ => ⟨S128x4, .f32⟩
  | .local _ .vmem, ⟨3, _⟩ => ⟨S20000x4, .f32⟩
  | .local _ .vmem, ⟨4, _⟩ => ⟨S20000x4, .f32⟩
  | .local _ .vmem, ⟨5, _⟩ => ⟨S20000x128, .f32⟩
  | .local _ .vmem, ⟨6, _⟩ => ⟨S20000x128, .f32⟩
  | .local _ .vmem, ⟨7, _⟩ => ⟨S20000x4, .f32⟩
  | .local _ .vmem, ⟨8, _⟩ => ⟨S20000x4, .f32⟩
  | .local _ .vmem, ⟨9, _⟩ => ⟨S20000x4, .f32⟩
  | .local _ .vmem, ⟨10, _⟩ => ⟨S20000x4, .f32⟩
  | .local _ .vmem, ⟨11, _⟩ => ⟨S128x4, .f32⟩
  | .local _ .vmem, ⟨12, _⟩ => ⟨S4, .f32⟩
  | .local _ .vmem, ⟨13, _⟩ => ⟨S20000x1, .f32⟩
  | .local _ .vmem, ⟨14, _⟩ => ⟨S20000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v2 : Ref sig .tc := ⟨.hbm, 15, rfl⟩
abbrev main_c_1 : Ref sig .tc := ⟨.hbm, 16, rfl⟩
abbrev main_c_2 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v3 : Ref sig .tc := ⟨.hbm, 23, rfl⟩
abbrev main_call2_c : Ref sig .tc := ⟨.hbm, 24, rfl⟩
abbrev main_call2_v0 : Ref sig .tc := ⟨.hbm, 25, rfl⟩
abbrev main_call2_v1 : Ref sig .tc := ⟨.hbm, 26, rfl⟩
abbrev main_call2_c_0 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_call2_v5 : Ref sig .tc := ⟨.hbm, 31, rfl⟩
abbrev main_call2_c_1 : Ref sig .tc := ⟨.hbm, 32, rfl⟩
abbrev main_call2_c_2 : Ref sig .tc := ⟨.hbm, 33, rfl⟩
abbrev main_call2_v6 : Ref sig .tc := ⟨.hbm, 34, rfl⟩
abbrev main_call2_v7 : Ref sig .tc := ⟨.hbm, 35, rfl⟩
abbrev main_call2_v8 : Ref sig .tc := ⟨.hbm, 36, rfl⟩
abbrev main_call2_v9 : Ref sig .tc := ⟨.hbm, 37, rfl⟩
abbrev main_call2_v10 : Ref sig .tc := ⟨.hbm, 38, rfl⟩
abbrev main_call2_v11 : Ref sig .tc := ⟨.hbm, 39, rfl⟩
abbrev main_call2_c_3 : Ref sig .tc := ⟨.hbm, 40, rfl⟩
abbrev main_call2_v12 : Ref sig .tc := ⟨.hbm, 41, rfl⟩
abbrev main_call2_v13 : Ref sig .tc := ⟨.hbm, 42, rfl⟩
abbrev main_call2_v14 : Ref sig .tc := ⟨.hbm, 43, rfl⟩
abbrev main_call2_cst : Ref sig .tc := ⟨.hbm, 44, rfl⟩
abbrev main_call2_v15 : Ref sig .tc := ⟨.hbm, 45, rfl⟩
abbrev main_v4 : Ref sig .tc := ⟨.hbm, 46, rfl⟩
abbrev main_call3_c : Ref sig .tc := ⟨.hbm, 47, rfl⟩
abbrev main_call3_v0 : Ref sig .tc := ⟨.hbm, 48, rfl⟩
abbrev main_call3_v1 : Ref sig .tc := ⟨.hbm, 49, rfl⟩
abbrev main_call3_c_0 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_call3_v5 : Ref sig .tc := ⟨.hbm, 54, rfl⟩
abbrev main_call3_c_1 : Ref sig .tc := ⟨.hbm, 55, rfl⟩
abbrev main_call3_c_2 : Ref sig .tc := ⟨.hbm, 56, rfl⟩
abbrev main_call3_v6 : Ref sig .tc := ⟨.hbm, 57, rfl⟩
abbrev main_call3_v7 : Ref sig .tc := ⟨.hbm, 58, rfl⟩
abbrev main_call3_v8 : Ref sig .tc := ⟨.hbm, 59, rfl⟩
abbrev main_call3_v9 : Ref sig .tc := ⟨.hbm, 60, rfl⟩
abbrev main_call3_v10 : Ref sig .tc := ⟨.hbm, 61, rfl⟩
abbrev main_call3_v11 : Ref sig .tc := ⟨.hbm, 62, rfl⟩
abbrev main_call3_c_3 : Ref sig .tc := ⟨.hbm, 63, rfl⟩
abbrev main_call3_v12 : Ref sig .tc := ⟨.hbm, 64, rfl⟩
abbrev main_call3_v13 : Ref sig .tc := ⟨.hbm, 65, rfl⟩
abbrev main_call3_v14 : Ref sig .tc := ⟨.hbm, 66, rfl⟩
abbrev main_call3_cst : Ref sig .tc := ⟨.hbm, 67, rfl⟩
abbrev main_call3_v15 : Ref sig .tc := ⟨.hbm, 68, rfl⟩
abbrev main_v5 : Ref sig .tc := ⟨.hbm, 69, rfl⟩
abbrev main_v6 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![30], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S20000x4 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S20000x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S20000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  transposes_S4x128_S128x4_1_0 : S4x128.Transposes [1, 0] S128x4
  inb_S20000x128_S20000x128_0_0 : ∀ a, (![0, 0] : Fin 2 → Nat) a + S20000x128.size a ≤ S20000x128.size a
  h_S20000x128 : 0 < S20000x128.numel
  inb_S128x4_S128x4_0_0 : ∀ a, (![0, 0] : Fin 2 → Nat) a + S128x4.size a ≤ S128x4.size a
  h_S128x4 : 0 < S128x4.numel
  shapeCasts_S128x4_S128x4 : S128x4.ShapeCasts S128x4
  inb_S20000x4_S20000x4_0_0 : ∀ a, (![0, 0] : Fin 2 → Nat) a + S20000x4.size a ≤ S20000x4.size a
  h_S20000x4 : 0 < S20000x4.numel
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x4_0 : S600000.BroadcastsInDim S600000x4 (![0] : Fin 1 → Fin S600000x4.rank)
  bcast_S_S600000x4 : S_.BroadcastsInDim S600000x4 (![] : Fin 0 → Fin S600000x4.rank)
  inb_S4_S4_0 : ∀ a, (![0] : Fin 1 → Nat) a + S4.size a ≤ S4.size a
  h_S4 : 0 < S4.numel
  shapeCasts_S20000x4_S20000x4 : S20000x4.ShapeCasts S20000x4
  shapeCasts_S4_S1x4 : S4.ShapeCasts S1x4
  broadcasts_S1x4_S20000x4 : S1x4.Broadcasts S20000x4
  reduces_S20000x4_S20000 : S20000x4.Reduces [1] S20000
  shapeCasts_S20000_S20000x1 : S20000.ShapeCasts S20000x1
  inb_S20000x1_S20000x1_0_0 : ∀ a, (![0, 0] : Fin 2 → Nat) a + S20000x1.size a ≤ S20000x1.size a
  h_S20000x1 : 0 < S20000x1.numel
  dot_S20000x128_S128x4_S20000x4_1_0_0_1_n_n_wf : DotDims.WF S20000x128 S128x4 S20000x4 [1] [0] [0] [1] [] []
  gather_S100000x4_S600000x1_S600000x4_1_0_n_n_0_1_14_wf : GatherDims.WF S100000x4 S600000x1 S600000x4 [1] [0] [] [0] [] 1 ![1, 4]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x128.size a ≤ S100000x128.size a
  hwx0_0 : ∀ i : grid0.Coords, EltTy.bits .f32 = 32 ∨ (Rect.block (s := S100000x128) S20000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4.size a ≤ S128x4.size a
  hwx0_1 : ∀ i : grid0.Coords, EltTy.bits .f32 = 32 ∨ (Rect.block (s := S128x4) S128x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x4.size a ≤ S100000x4.size a
  hwx0_2 : ∀ i : grid0.Coords, EltTy.bits .f32 = 32 ∨ (Rect.block (s := S100000x4) S20000x4.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x128.size a ≤ S600000x128.size a
  hwx1_0 : ∀ i : grid1.Coords, EltTy.bits .f32 = 32 ∨ (Rect.block (s := S600000x128) S20000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S20000x4.size a ≤ S600000x4.size a
  hwx1_1 : ∀ i : grid1.Coords, EltTy.bits .f32 = 32 ∨ (Rect.block (s := S600000x4) S20000x4.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x4.size a ≤ S600000x4.size a
  hwx1_2 : ∀ i : grid1.Coords, EltTy.bits .f32 = 32 ∨ (Rect.block (s := S600000x4) S20000x4.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x4.size a ≤ S128x4.size a
  hwx1_3 : ∀ i : grid1.Coords, EltTy.bits .f32 = 32 ∨ (Rect.block (s := S128x4) S128x4.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4.size a ≤ S4.size a
  hwx1_4 : ∀ i : grid1.Coords, EltTy.bits .f32 = 32 ∨ (Rect.block (s := S4) S4.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S20000x1.size a ≤ S600000x1.size a
  hwx1_5 : ∀ i : grid1.Coords, EltTy.bits .f32 = 32 ∨ (Rect.block (s := S600000x1) S20000x1.size (cc1_transform_5 i) (hinb1_5 i)).WholeWords (EltTy.packing .f32)

variable [Facts₀]

def dot_S20000x128_S128x4_S20000x4_1_0_0_1_n_n : DotDims S20000x128 S128x4 S20000x4 where
  lhsContracting := [1]
  rhsContracting := [0]
  lhsNonContracting := [0]
  rhsNonContracting := [1]
  lhsBatch := []
  rhsBatch := []
  wf := dot_S20000x128_S128x4_S20000x4_1_0_0_1_n_n_wf
def gather_S100000x4_S600000x1_S600000x4_1_0_n_n_0_1_14 : GatherDims S100000x4 S600000x1 S600000x4 where
  offsetDims := [1]
  collapsedSliceDims := [0]
  operandBatchingDims := []
  startIndicesBatchingDims := []
  startIndexMap := [0]
  indexVectorDim := 1
  sliceSizes := ![1, 4]
  wf := gather_S100000x4_S600000x1_S600000x4_1_0_n_n_0_1_14_wf

abbrev win0_0 : Pipeline.Window sig grid0 :=
  Pipeline.Window.ofSpec (Memref.whole main_arg0) S20000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S20000x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S20000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S20000x4.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S20000x4.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S128x4.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S4.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S20000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S600000x128 : Shape := ⟨2, ![600000, 128]⟩
abbrev S4x128 : Shape := ⟨2, ![4, 128]⟩
abbrev S4 : Shape := ⟨1, ![4]⟩
abbrev S600000 : Shape := ⟨1, ![600000]⟩
abbrev S_ : Shape := ⟨0, ![]⟩
abbrev S600000x1 : Shape := ⟨2, ![600000, 1]⟩
abbrev S128x4 : Shape := ⟨2, ![128, 4]⟩
abbrev S600000x4 : Shape := ⟨2, ![600000, 4]⟩
abbrev S1x4 : Shape := ⟨2, ![1, 4]⟩

abbrev nBuf : Space → Nat
  | .hbm => 54
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000x128, .f32⟩
  | .hbm, ⟨2, _⟩ => ⟨S4x128, .f32⟩
  | .hbm, ⟨3, _⟩ => ⟨S4, .f32⟩
  | .hbm, ⟨4, _⟩ => ⟨S600000, .i32⟩
  | .hbm, ⟨5, _⟩ => ⟨S600000, .i32⟩
  | .hbm, ⟨6, _⟩ => ⟨S_, .i32⟩
  | .hbm, ⟨7, _⟩ => ⟨S600000, .i32⟩
  | .hbm, ⟨8, _⟩ => ⟨S600000, .i1⟩
  | .hbm, ⟨9, _⟩ => ⟨S_, .i32⟩
  | .hbm, ⟨10, _⟩ => ⟨S600000, .i32⟩
  | .hbm, ⟨11, _⟩ => ⟨S600000, .i32⟩
  | .hbm, ⟨12, _⟩ => ⟨S600000, .i32⟩
  | .hbm, ⟨13, _⟩ => ⟨S600000x1, .i32⟩
  | .hbm, ⟨14, _⟩ => ⟨S600000x128, .f32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S600000x128, .f32⟩
  | .hbm, ⟨25, _⟩ => ⟨S_, .f32⟩
  | .hbm, ⟨26, _⟩ => ⟨S600000x128, .f32⟩
  | .hbm, ⟨27, _⟩ => ⟨S600000x128, .f32⟩
  | .hbm, ⟨28, _⟩ => ⟨S600000x128, .f32⟩
  | .hbm, ⟨29, _⟩ => ⟨S_, .f32⟩
  | .hbm, ⟨30, _⟩ => ⟨S600000x128, .f32⟩
  | .hbm, ⟨31, _⟩ => ⟨S600000x128, .f32⟩
  | .hbm, ⟨32, _⟩ => ⟨S128x4, .f32⟩
  | .hbm, ⟨33, _⟩ => ⟨S600000x4, .f32⟩
  | .hbm, ⟨34, _⟩ => ⟨S1x4, .f32⟩
  | .hbm, ⟨35, _⟩ => ⟨S600000x4, .f32⟩
  | .hbm, ⟨36, _⟩ => ⟨S600000x4, .f32⟩
  | .hbm, ⟨37, _⟩ => ⟨S128x4, .f32⟩
  | .hbm, ⟨38, _⟩ => ⟨S600000x4, .f32⟩
  | .hbm, ⟨39, _⟩ => ⟨S1x4, .f32⟩
  | .hbm, ⟨40, _⟩ => ⟨S600000x4, .f32⟩
  | .hbm, ⟨41, _⟩ => ⟨S600000x4, .f32⟩
  | .hbm, ⟨42, _⟩ => ⟨S600000x4, .f32⟩
  | .hbm, ⟨43, _⟩ => ⟨S_, .f32⟩
  | .hbm, ⟨44, _⟩ => ⟨S600000, .f32⟩
  | .hbm, ⟨45, _⟩ => ⟨S600000x1, .f32⟩
  | .hbm, ⟨46, _⟩ => ⟨S600000x1, .f32⟩
  | .hbm, ⟨47, _⟩ => ⟨S600000x1, .f32⟩
  | .hbm, ⟨48, _⟩ => ⟨S_, .f32⟩
  | .hbm, ⟨49, _⟩ => ⟨S600000x1, .f32⟩
  | .hbm, ⟨50, _⟩ => ⟨S600000x1, .f32⟩
  | .hbm, ⟨51, _⟩ => ⟨S_, .f32⟩
  | .hbm, ⟨52, _⟩ => ⟨S600000x1, .f32⟩
  | .hbm, ⟨53, _⟩ => ⟨S600000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  transposes_S4x128_S128x4_1_0 : S4x128.Transposes [1, 0] S128x4
  bcast_S4_S1x4_1 : S4.BroadcastsInDim S1x4 (![1] : Fin 1 → Fin S1x4.rank)
  bcast_S1x4_S600000x4_0_1 : S1x4.BroadcastsInDim S600000x4 (![0, 1] : Fin 2 → Fin S600000x4.rank)
  reducesTo_S600000x4_S600000_d1 : S600000x4.ReducesTo [1] S600000
  h_S_ : 0 < S_.numel
  bcast_S_S600000x1 : S_.BroadcastsInDim S600000x1 (![] : Fin 0 → Fin S600000x1.rank)
  gather_S100000x128_S600000x1_S600000x128_1_0_n_n_0_1_1128_wf : GatherDims.WF S100000x128 S600000x1 S600000x128 [1] [0] [] [0] [] 1 ![1, 128]
  dot_S600000x128_S128x4_S600000x4_1_0_0_1_n_n_wf : DotDims.WF S600000x128 S128x4 S600000x4 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x128_S128x4_S600000x4_1_0_0_1_n_n : DotDims S600000x128 S128x4 S600000x4 where
  lhsContracting := [1]
  rhsContracting := [0]
  lhsNonContracting := [0]
  rhsNonContracting := [1]
  lhsBatch := []
  rhsBatch := []
  wf := dot_S600000x128_S128x4_S600000x4_1_0_0_1_n_n_wf

class Facts : Prop extends Facts₀ where

variable [Facts]
-- ==== Proof.Spec.lean ====
/-
  The mathematics of the edge scorer, with no program in sight.

  A graph has 100000 nodes with 128 features each (`n`), 600000 edges with 128 features each (`e`), and two
  index vectors naming each edge's source and destination node. A linear map `W : ℝ¹²⁸ → ℝ⁴` with bias `b`
  projects; the score of edge `i` is `σ (∑ⱼ hs i j · hd i j)` with `σ` the logistic function, where

    hs i j = ∑ₖ ((n (src i) k + e i k) · ½) · W j k + b j          (average first, then project)

  or, projecting first and averaging after,

    hs i j = ((∑ₖ n (src i) k · W j k) + (∑ₖ e i k · W j k)) · ½ + b j.

  Over the reals the two agree by distributivity; over the extended reals distributivity needs every entry of
  `n`, `e` and `W` to be a real number, which is what the finiteness hypotheses say.
-/
import Idealize.ShloMosaic.PureOps.Ideal
import Idealize.ShloMosaic.Lib.ValueIdx

noncomputable section

namespace Cert.EdgeScore

open Idealize.ShloMosaic Idealize.ShloMosaic.ValueIdx

abbrev NodeFeat : Shape := ⟨2, ![100000, 128]⟩
abbrev EdgeFeat : Shape := ⟨2, ![600000, 128]⟩
abbrev Weight : Shape := ⟨2, ![4, 128]⟩
abbrev WeightT : Shape := ⟨2, ![128, 4]⟩
abbrev BiasV : Shape := ⟨1, ![4]⟩
abbrev EdgeIds : Shape := ⟨1, ![600000]⟩
abbrev NodeTab : Shape := ⟨2, ![100000, 4]⟩
abbrev EdgeTab : Shape := ⟨2, ![600000, 4]⟩
abbrev Scores : Shape := ⟨2, ![600000, 1]⟩

/-- An index word names a node: read signed, it lies in `[0, 100000)`. -/
def InRange (x : BitVec 32) : Prop := 0 ≤ x.toInt ∧ x.toInt < 100000

/-- The node row an index word selects: the word read signed, clamped into the table. -/
def row (x : BitVec 32) : Fin 100000 := ⟨min x.toInt.toNat (100000 - 1), by omega⟩

/-- The literal `0.5`. -/
def half : EReal := Ideal.ofBits .f32 0x3F000000#32

/-- `0.5` is the real number one half. -/
theorem half_eq : half = ((1 / 2 : ℝ) : EReal) := by
  unfold half
  simp [Ideal.ofBits, Ideal.ieee, -EReal.coe_mul]; norm_num

/-- The projected node table `n · Wᵀ`, entry `(r, j)`, over the transposed weights. -/
def nodeTable (n : NodeFeat.Idx → EReal) (Wt : WeightT.Idx → EReal) : NodeTab.Idx → EReal :=
  fun i => ∑ k : Fin 128, n (ix2 (i 0) k) * Wt (ix2 k (i 1))

/-- The score from the edge features, the two gathered rows of the projected node table, the transposed weights and
    the bias: project the edge, average with each gathered row, add the bias, multiply the two hidden vectors entry
    by entry, sum, and apply the logistic function. -/
def edgeScore (e : EdgeFeat.Idx → EReal) (s d : EdgeTab.Idx → EReal) (Wt : WeightT.Idx → EReal) (b : BiasV.Idx → EReal) :
    Scores.Idx → EReal :=
  fun o => Ideal.logistic (∑ j : Fin 4,
    ((s (ix2 (o 0) j) + ∑ k : Fin 128, e (ix2 (o 0) k) * Wt (ix2 k j)) * half + b (ix1 j))
      * ((d (ix2 (o 0) j) + ∑ k : Fin 128, e (ix2 (o 0) k) * Wt (ix2 k j)) * half + b (ix1 j)))

/-- Project first, average after: one hidden entry. -/
def hidK (n : NodeFeat.Idx → EReal) (e : EdgeFeat.Idx → EReal) (W : Weight.Idx → EReal) (b : BiasV.Idx → EReal)
    (x : BitVec 32) (i : Fin 600000) (j : Fin 4) : EReal :=
  ((∑ k : Fin 128, n (ix2 (row x) k) * W (ix2 j k)) + ∑ k : Fin 128, e (ix2 i k) * W (ix2 j k)) * half + b (ix1 j)

/-- Average first, project after: one hidden entry. -/
def hidR (n : NodeFeat.Idx → EReal) (e : EdgeFeat.Idx → EReal) (W : Weight.Idx → EReal) (b : BiasV.Idx → EReal)
    (x : BitVec 32) (i : Fin 600000) (j : Fin 4) : EReal :=
  (∑ k : Fin 128, ((n (ix2 (row x) k) + e (ix2 i k)) * half) * W (ix2 j k)) + b (ix1 j)

/-- The score, projecting first. -/
def scoreK (n : NodeFeat.Idx → EReal) (e : EdgeFeat.Idx → EReal) (W : Weight.Idx → EReal) (b : BiasV.Idx → EReal)
    (src dst : EdgeIds.Idx → BitVec 32) : Scores.Idx → EReal :=
  fun o => Ideal.logistic (∑ j : Fin 4, hidK n e W b (src (ix1 (o 0))) (o 0) j * hidK n e W b (dst (ix1 (o 0))) (o 0) j)

/-- The score, averaging first. -/
def scoreR (n : NodeFeat.Idx → EReal) (e : EdgeFeat.Idx → EReal) (W : Weight.Idx → EReal) (b : BiasV.Idx → EReal)
    (src dst : EdgeIds.Idx → BitVec 32) : Scores.Idx → EReal :=
  fun o => Ideal.logistic (∑ j : Fin 4, hidR n e W b (src (ix1 (o 0))) (o 0) j * hidR n e W b (dst (ix1 (o 0))) (o 0) j)

/-- A finite sum of real numbers, coerced term by term, is the coerced sum. -/
theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- THE LAW: with every feature and weight a real number, averaging before projecting equals projecting before
    averaging, entry by entry. -/
theorem hidR_eq_hidK (n : NodeFeat.Idx → EReal) (e : EdgeFeat.Idx → EReal) (W : Weight.Idx → EReal) (b : BiasV.Idx → EReal)
    (hn : ∀ i, ∃ r : ℝ, n i = (r : EReal)) (he : ∀ i, ∃ r : ℝ, e i = (r : EReal)) (hW : ∀ i, ∃ r : ℝ, W i = (r : EReal))
    (x : BitVec 32) (i : Fin 600000) (j : Fin 4) : hidR n e W b x i j = hidK n e W b x i j := by
  choose n' hn' using hn
  choose e' he' using he
  choose W' hW' using hW
  -- over the reals: ∑ₖ ((aₖ + cₖ) · ½) · wₖ = ((∑ₖ aₖ · wₖ) + ∑ₖ cₖ · wₖ) · ½
  have key : (∑ k : Fin 128, ((n' (ix2 (row x) k) + e' (ix2 i k)) * (1 / 2)) * W' (ix2 j k) : ℝ)
      = ((∑ k : Fin 128, n' (ix2 (row x) k) * W' (ix2 j k)) + ∑ k : Fin 128, e' (ix2 i k) * W' (ix2 j k)) * (1 / 2) := by
    rw [← Finset.sum_add_distrib, Finset.sum_mul]
    exact Finset.sum_congr rfl fun k _ => by ring
  unfold hidR hidK
  simp only [hn', he', hW', half_eq, ← EReal.coe_add, ← EReal.coe_mul, coe_sum, key]

/-- The two scores agree when every feature and weight is a real number. -/
theorem scoreR_eq_scoreK (n : NodeFeat.Idx → EReal) (e : EdgeFeat.Idx → EReal) (W : Weight.Idx → EReal) (b : BiasV.Idx → EReal)
    (src dst : EdgeIds.Idx → BitVec 32)
    (hn : ∀ i, ∃ r : ℝ, n i = (r : EReal)) (he : ∀ i, ∃ r : ℝ, e i = (r : EReal)) (hW : ∀ i, ∃ r : ℝ, W i = (r : EReal)) :
    scoreR n e W b src dst = scoreK n e W b src dst := by
  funext o
  unfold scoreR scoreK
  congr 1
  refine Finset.sum_congr rfl fun j _ => ?_
  exact congrArg₂ (· * ·) (hidR_eq_hidK n e W b hn he hW _ _ _) (hidR_eq_hidK n e W b hn he hW _ _ _)

end Cert.EdgeScore

end
-- ==== Proof.PreFacts.lean ====
import proofs.«400772_j9852654977718_3_alg».proof.Pre_finite_inputs
import proofs.«400772_j9852654977718_3_alg».proof.Proof.Gen.Pre_finite_inputs
import proofs.«400772_j9852654977718_3_alg».proof.Proof.Spec
import Idealize.ShloMosaic.Lib.ReduceAll
import Idealize.ShloMosaic.Lib.StableHlo.Predicate
import Idealize.ShloMosaic.PureOps.Ideal.Laws

/-
  The precondition, read back entry by entry.

  The precondition is one bit: the conjunction of six tests, one per input array. For a feature or weight array
  the test is "every entry x has |x| < +∞"; for an index vector it is "every entry x has 0 ≤ x and x < 100000",
  read signed. Each test is the conjunction, over all positions of the array, of an entrywise comparison; a
  conjunction of bits is 1 only if every one of them is 1, so from the one bit being 1 every entrywise comparison
  holds. What a comparison says of its entry is then arithmetic: an extended real whose absolute value lies
  strictly below +∞ is neither +∞ nor -∞ (the absolute value of -∞ is +∞), hence a real number; and the two signed
  comparisons of a word are exactly the two bounds that make it name a node.
-/

noncomputable section

namespace Cert.PreFacts

open Idealize.ShloMosaic Idealize.ShloMosaic.ValueIdx Cert.EdgeScore

/-- The shape with no axes has exactly one index: there is no axis on which two indices could differ. -/
instance subsingleton_scalar_idx : Subsingleton Cert.Pre_finite_inputs.S_.Idx :=
  ⟨fun a b => funext fun d => d.elim0⟩

/-- The word `0x7F800000` (sign 0, exponent all ones, significand 0) denotes `+∞`. -/
private theorem inf_word : Ideal.ofBits .f32 0x7F800000#32 = (⊤ : EReal) := by
  simp [Ideal.ofBits, Ideal.ieee]

/-- An extended real whose absolute value `max x (-x)` compares strictly below `+∞` is a real number: it is not
    `+∞` because `x ≤ max x (-x) < +∞`, and not `-∞` because then `-x = +∞` would lie below `+∞`. -/
private theorem real_of_abs_lt_inf (x : EReal)
    (h : Ideal.cmp .olt (max x (-x)) (Ideal.ofBits .f32 0x7F800000#32) = 1#1) : ∃ r : ℝ, x = (r : EReal) := by
  rw [inf_word] at h
  have hlt : max x (-x) < ⊤ := by
    unfold Ideal.cmp at h
    simpa only [StableHlo.Predicate.ofBool_eq_one_iff, decide_eq_true_eq] using h
  obtain ⟨hx, hnx⟩ := max_lt_iff.1 hlt
  have hb : x ≠ ⊥ := by
    rintro rfl
    rw [EReal.neg_bot] at hnx
    exact lt_irrefl _ hnx
  exact ⟨x.toReal, (EReal.coe_toReal hx.ne hb).symm⟩

/-- A word for which both signed tests `0 ≤ x` and `x < 100000` answer 1 names a node. -/
private theorem inRange_of_tests (x : BitVec 32)
    (h : IntOp.andi (IntOp.cmpi .sge x 0#32) (IntOp.cmpi .slt x 100000#32) = 1#1) : InRange x := by
  obtain ⟨h0, h1⟩ := IntOp.andi_eq_one.1 h
  have lo : (0#32 : BitVec 32).toInt ≤ x.toInt := IntOp.cmpi_sge.1 h0
  have hi : x.toInt < (100000#32 : BitVec 32).toInt := IntOp.cmpi_slt.1 h1
  have e0 : (0#32 : BitVec 32).toInt = 0 := by decide
  have e1 : (100000#32 : BitVec 32).toInt = 100000 := by decide
  rw [e0] at lo
  rw [e1] at hi
  unfold InRange
  exact ⟨lo, hi⟩

/-- ONE FLOAT ARRAY. If the conjunction over all positions of "`|x i| < +∞`" is 1, every entry of `x` is a real
    number: the conjunction being 1 makes the comparison 1 at each position `i`, and the comparison at `i` is the
    comparison of `|x i|` with the word for `+∞` (the broadcast constant reads that word everywhere). -/
private theorem real_of_all_finite {s : Shape} {axes : List (Fin s.rank)} (x : s.Idx → EReal)
    (bc : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
        (cmpf (F := Ideal) (φ := .f32) .olt (Host.absf (F := Ideal) (φ := .f32) x)
          (broadcastInDim s ![] bc (constant (F := Ideal) Cert.Pre_finite_inputs.S_ .f32 0x7F800000#32)))
        (constantI Cert.Pre_finite_inputs.S_ 1 1#1) hr hu ix0 = 1#1)
    (i : s.Idx) : ∃ r : ℝ, x i = (r : EReal) := by
  have e := Host.reduce_andi_all _ _ hr hu ix0 h i
  exact real_of_abs_lt_inf (x i) e

/-- ONE INDEX VECTOR. If the conjunction over all positions of "`0 ≤ idx i` and `idx i < 100000`" (signed) is 1,
    every entry of `idx` names a node: at each position the two comparisons are against the broadcast constants
    `0` and `100000`, which read those words everywhere. -/
private theorem inRange_of_all {s : Shape} {axes : List (Fin s.rank)} (idx : s.Idx → BitVec 32)
    (bc : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
        (andi (cmpi .sge idx (broadcastInDim s ![] bc (constantI Cert.Pre_finite_inputs.S_ 32 0#32)))
          (cmpi .slt idx (broadcastInDim s ![] bc (constantI Cert.Pre_finite_inputs.S_ 32 100000#32))))
        (constantI Cert.Pre_finite_inputs.S_ 1 1#1) hr hu ix0 = 1#1)
    (i : s.Idx) : InRange (idx i) := by
  have e := Host.reduce_andi_all _ _ hr hu ix0 h i
  exact inRange_of_tests (idx i) e

/-- What the precondition says, entry by entry: the node features, the edge features and the weights are real
    numbers, and every source and destination index names a node. -/
theorem of_pre [Cert.Pre_finite_inputs.Facts] (n : NodeFeat.Idx → EReal) (e : EdgeFeat.Idx → EReal) (W : Weight.Idx → EReal)
    (b : BiasV.Idx → EReal) (src dst : EdgeIds.Idx → BitVec 32)
    (h : Cert.Pre_finite_inputs.fn (F := Ideal) n e W b src dst = fun _ => 1#1) :
    (∀ i, ∃ r : ℝ, n i = (r : EReal)) ∧ (∀ i, ∃ r : ℝ, e i = (r : EReal)) ∧ (∀ i, ∃ r : ℝ, W i = (r : EReal))
      ∧ (∀ i, InRange (src i)) ∧ (∀ i, InRange (dst i)) := by
  -- the one bit of the precondition, at the one index of the scalar shape
  have h0 := congrFun h ValueIdx.ix0
  dsimp only [Cert.Pre_finite_inputs.fn, Cert.Pre_finite_inputs.fn_part1] at h0
  -- the bit is (((((n ∧ e) ∧ W) ∧ b) ∧ src) ∧ dst): a conjunction of two bits is 1 only if both are
  obtain ⟨h5, hdst⟩ := IntOp.andi_eq_one.1 h0
  obtain ⟨h4, hsrc⟩ := IntOp.andi_eq_one.1 h5
  obtain ⟨h3, -⟩ := IntOp.andi_eq_one.1 h4
  obtain ⟨h2, hW⟩ := IntOp.andi_eq_one.1 h3
  obtain ⟨hn, he⟩ := IntOp.andi_eq_one.1 h2
  exact ⟨real_of_all_finite n _ _ _ hn, real_of_all_finite e _ _ _ he, real_of_all_finite W _ _ _ hW,
    inRange_of_all src _ _ _ hsrc, inRange_of_all dst _ _ _ hdst⟩

end Cert.PreFacts

end
-- ==== Proof.LibGatherRows.lean ====
/-
  Row gather read at an element. jnp's `table[idx]` over a rank-2 table `[N, L]` with an integer vector `idx : [n]`
  lowers to a `stablehlo.gather` whose start indices are the `[n, 1]` column of positions: operand axis 0 is collapsed
  and start-indexed, operand axis 1 is the one offset axis (a whole row of length `L` is the slice), and the index
  vector sits on axis 1 of the start indices. Result element `(p, q)` is therefore the table at row
  "start index of position `p`, read signed and clamped into `[0, N - 1]`" and column `q`.
-/
import Idealize.ShloMosaic.Lib.ValueIdx
import Idealize.ShloMosaic.Lib.StableHlo.Predicate

namespace Idealize.ShloMosaic.GatherRows

open Idealize.ShloMosaic Idealize.ShloMosaic.ValueIdx Idealize.ShloMosaic.StableHlo.Predicate

/-- THE ROW GATHER at `(p, q)`: the operand at row `clamp (idx[p, 0])`, column `q`. The hypotheses are the printed
    dimension numbers, each closed by `rfl` at a program's record. -/
theorem gather_rows {α : Type} {N L n w : Nat} (d : GatherDims ⟨2, ![N, L]⟩ ⟨2, ![n, 1]⟩ ⟨2, ![n, L]⟩)
    (hoff : d.offsetDims = [1]) (hcoll : d.collapsedSliceDims = [0]) (hob : d.operandBatchingDims = [])
    (hsim : d.startIndexMap = [0]) (hivd : d.indexVectorDim = 1)
    (x : (⟨2, ![N, L]⟩ : Shape).Idx → α) (idx : IVec ⟨2, ![n, 1]⟩ w) (p : Fin n) (q : Fin L) (hN : 0 < N) :
    Host.gather d x idx (ix2 p q) = x (ix2 ⟨min (idx (ixP p)).toInt.toNat (N - 1), by omega⟩ q) := by
  unfold Host.gather
  congr 1
  funext a
  apply Fin.ext
  have hb : ∀ a : Fin 2, a ∉ d.operandBatchingDims := fun a => by rw [hob]; exact List.not_mem_nil
  match a with
  | ⟨0, _⟩ =>
    -- the collapsed, start-indexed axis: the clamped start index, no batch or offset coordinate
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = _
    rw [GatherDims.batchCoord_eq_zero _ _ _ (hb 0), GatherDims.offCoord_eq_zero _ _ _ hk]
    simp only [Nat.add_zero, GatherDims.start, dif_pos hm]
    show min (idx _).toInt.toNat (N - d.sliceSizes 0) = min (idx (ixP p)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      -- the result's batch axes are the non-offset ones: axis 0 only
      have hbd : d.batchDims = [0] := by
        show (⟨2, ![n, L]⟩ : Shape).kept d.offsetDims = [0]
        rw [hoff]; rfl
      have hsk : d.siKept = [0] := by
        show (List.finRange 2).filter (fun b : Fin 2 => b.val ≠ d.indexVectorDim) = [0]
        rw [hivd]; decide
      have e : ∀ (k : Nat) (hk : k < d.batchDims.length), ((ix2 p q : (⟨2, ![n, L]⟩ : Shape).Idx) (d.batchDims[k]'hk)).val = p.val := by
        intro k hk
        have hk0 : k = 0 := by rw [hbd] at hk; simpa using hk
        subst hk0
        have : d.batchDims[0]'hk = (0 : Fin 2) := by simp [hbd]
        rw [this]
      exact e _ _
    | ⟨1, _⟩ =>
      unfold GatherDims.siIdx
      rw [dif_pos (by rw [hivd])]
      apply Fin.ext
      show List.idxOf (0 : Fin 2) d.startIndexMap = 0
      rw [hsim]; simp
  | ⟨1, _⟩ =>
    -- the offset axis: no start index (axis 1 is not start-indexed), the result's column
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ (hb 1)]
    simp only [GatherDims.start, dif_neg hm, Nat.add_zero, Nat.zero_add, GatherDims.offCoord, dif_pos hk]
    have hsk : d.sKept = [1] := by
      show (⟨2, ![N, L]⟩ : Shape).kept (d.collapsedSliceDims ++ d.operandBatchingDims) = [1]
      rw [hcoll, hob]; rfl
    have e : ∀ (k : Nat) (hk : k < d.offsetDims.length), ((ix2 p q : (⟨2, ![n, L]⟩ : Shape).Idx) (d.offsetDims[k]'hk)).val = q.val := by
      intro k hk
      have hk0 : k = 0 := by rw [hoff] at hk; simpa using hk
      subst hk0
      have : d.offsetDims[0]'hk = (1 : Fin 2) := by simp [hoff]
      rw [this]
    exact e _ _

end Idealize.ShloMosaic.GatherRows
-- ==== Proof.RefValue.lean ====
import proofs.«400772_j9852654977718_3_alg».proof.Proof.Gen.ReferenceIdeal.Run
import proofs.«400772_j9852654977718_3_alg».proof.Proof.Gen.ReferenceIdeal.Read
import proofs.«400772_j9852654977718_3_alg».proof.Proof.Spec
import proofs.«400772_j9852654977718_3_alg».proof.Proof.LibGatherRows
import Idealize.ShloMosaic.Lib.ValueLayout
import Idealize.ShloMosaic.Lib.StableHlo.Predicate
import Idealize.ShloMosaic.Lib.IdealHost

set_option maxRecDepth 16384

noncomputable section

namespace Cert.ReferenceIdeal.RefValue

open Idealize.ShloMosaic Idealize.ShloMosaic.TcCoe Idealize.ShloMosaic.ValueIdx Idealize.ShloMosaic.GatherRows
open Cert.ReferenceIdeal Cert.ReferenceIdeal.Gen Cert.ReferenceIdeal.Read Cert.EdgeScore

/-- Negative-index wrapping leaves an in-range index word alone: read signed it is not below zero, so the comparison
    with zero answers "no" and the select keeps the word itself rather than the word plus 100000. -/
private theorem wrap_inRange (x : BitVec 32) (h : InRange x) :
    Scalar.select (IntOp.cmpi .slt x 0#32) (IntOp.addi x 100000#32) x = x := by
  obtain ⟨hx, _⟩ : 0 ≤ x.toInt ∧ x.toInt < 100000 := h
  have h0 : IntOp.cmpi .slt x 0#32 = 0#1 := by
    apply eq_zero_of_ne_one
    intro h1
    have h2 : BitVec.ofBool (x.slt 0#32) = 1#1 := h1
    have h3 : x.slt 0#32 = true := (StableHlo.Predicate.ofBool_eq_one_iff _).mp h2
    have h4 : x.toInt < (0#32 : BitVec 32).toInt := BitVec.slt_iff_toInt_lt.mp h3
    rw [BitVec.toInt_zero] at h4
    omega
  rw [h0, select_zero]

/-- The wrapped source indices, kept as a column: row `p` holds the source word of edge `p` itself. -/
private theorem col_src (src : EdgeIds.Idx → BitVec 32) (hs : ∀ i, InRange (src i)) (p : Fin 600000) :
    val_main_v5 (F := Ideal) src (StableHlo.Predicate.ixP p) = src (ix1 p) := by
  have ei : idx_main_v5 (StableHlo.Predicate.ixP p) = ix1 p := funext fun a => by match a with | ⟨0, _⟩ => rfl
  simp only [val_main_v5_apply, val_main_v4_apply, val_main_v1_apply, val_main_v3_apply, val_main_v0_apply,
    val_main_c_apply, val_main_v2_apply, val_main_c_0_apply, ei]
  exact wrap_inRange _ (hs _)

/-- The wrapped destination indices, kept as a column: row `p` holds the destination word of edge `p` itself. -/
private theorem col_dst (dst : EdgeIds.Idx → BitVec 32) (hd : ∀ i, InRange (dst i)) (p : Fin 600000) :
    val_main_v12 (F := Ideal) dst (StableHlo.Predicate.ixP p) = dst (ix1 p) := by
  have ei : idx_main_v12 (StableHlo.Predicate.ixP p) = ix1 p := funext fun a => by match a with | ⟨0, _⟩ => rfl
  simp only [val_main_v12_apply, val_main_v11_apply, val_main_v8_apply, val_main_v10_apply, val_main_v7_apply,
    val_main_c_1_apply, val_main_v9_apply, val_main_c_2_apply, ei]
  exact wrap_inRange _ (hd _)

/-- The source gather at `(p, q)`: the node features at row `row (src p)`, column `q` — the gather clamps its start index
    into the table exactly as `row` does. -/
private theorem gather_src (n : NodeFeat.Idx → EReal) (src : EdgeIds.Idx → BitVec 32) (hs : ∀ i, InRange (src i))
    (p : Fin 600000) (q : Fin 128) :
    val_main_v6 (F := Ideal) n src (ix2 p q) = n (ix2 (Cert.EdgeScore.row (src (ix1 p))) q) := by
  unfold val_main_v6
  refine (gather_rows gather_S100000x128_S600000x1_S600000x128_1_0_n_n_0_1_1128 rfl rfl rfl rfl rfl n
    (val_main_v5 (F := Ideal) src) p q (by omega)).trans ?_
  refine congrArg n (congrArg (fun r : Fin 100000 => (ix2 r q : NodeFeat.Idx)) (Fin.ext ?_))
  show min (val_main_v5 (F := Ideal) src (StableHlo.Predicate.ixP p)).toInt.toNat (100000 - 1)
      = min (src (ix1 p)).toInt.toNat (100000 - 1)
  rw [col_src src hs p]

/-- The destination gather at `(p, q)`: the node features at row `row (dst p)`, column `q`. -/
private theorem gather_dst (n : NodeFeat.Idx → EReal) (dst : EdgeIds.Idx → BitVec 32) (hd : ∀ i, InRange (dst i))
    (p : Fin 600000) (q : Fin 128) :
    val_main_v13 (F := Ideal) n dst (ix2 p q) = n (ix2 (Cert.EdgeScore.row (dst (ix1 p))) q) := by
  unfold val_main_v13
  refine (gather_rows gather_S100000x128_S600000x1_S600000x128_1_0_n_n_0_1_1128 rfl rfl rfl rfl rfl n
    (val_main_v12 (F := Ideal) dst) p q (by omega)).trans ?_
  refine congrArg n (congrArg (fun r : Fin 100000 => (ix2 r q : NodeFeat.Idx)) (Fin.ext ?_))
  show min (val_main_v12 (F := Ideal) dst (StableHlo.Predicate.ixP p)).toInt.toNat (100000 - 1)
      = min (dst (ix1 p)).toInt.toNat (100000 - 1)
  rw [col_dst dst hd p]

/-- The source side's hidden entry `(p, j)`: the contraction over the 128 features of the averaged row (gathered node row
    plus edge row, times one half) against row `j` of the weights (the transposed weights read back), plus bias `j`. -/
private theorem hid_src (n : NodeFeat.Idx → EReal) (e : EdgeFeat.Idx → EReal) (W : Weight.Idx → EReal)
    (b : BiasV.Idx → EReal) (src : EdgeIds.Idx → BitVec 32) (hs : ∀ i, InRange (src i)) (p : Fin 600000) (j : Fin 4) :
    val_main_v24 (F := Ideal) n e W b src (ix2 p j) = hidR n e W b (src (ix1 p)) p j := by
  have el : ∀ k : Fin 128, lidx_main_v21 (ix2 p j) k = ix2 p k := fun k =>
    funext fun a => Fin.ext (by match a with | ⟨0, _⟩ => rfl | ⟨1, _⟩ => rfl)
  have er : ∀ k : Fin 128, idx_main_v20 (ridx_main_v21 (ix2 p j) k) = ix2 j k := fun k =>
    funext fun a => Fin.ext (by match a with | ⟨0, _⟩ => rfl | ⟨1, _⟩ => rfl)
  have eb : idx_main_v22 (idx_main_v23 (ix2 p j)) = ix1 j :=
    funext fun a => Fin.ext (by match a with | ⟨0, _⟩ => rfl)
  simp only [val_main_v24_apply, val_main_v21_apply, val_main_v23_apply, val_main_v22_apply, val_main_v20_apply,
    val_main_v16_apply, val_main_v15_apply, val_main_cst_apply, val_main_v14_apply, el, er, eb, gather_src n src hs]
  simp only [Ideal.addf_def, Ideal.mulf_def, Ideal.ofBits_def]
  rfl

/-- The destination side's hidden entry `(p, j)`, likewise. -/
private theorem hid_dst (n : NodeFeat.Idx → EReal) (e : EdgeFeat.Idx → EReal) (W : Weight.Idx → EReal)
    (b : BiasV.Idx → EReal) (dst : EdgeIds.Idx → BitVec 32) (hd : ∀ i, InRange (dst i)) (p : Fin 600000) (j : Fin 4) :
    val_main_v29 (F := Ideal) n e W b dst (ix2 p j) = hidR n e W b (dst (ix1 p)) p j := by
  have el : ∀ k : Fin 128, lidx_main_v26 (ix2 p j) k = ix2 p k := fun k =>
    funext fun a => Fin.ext (by match a with | ⟨0, _⟩ => rfl | ⟨1, _⟩ => rfl)
  have er : ∀ k : Fin 128, idx_main_v25 (ridx_main_v26 (ix2 p j) k) = ix2 j k := fun k =>
    funext fun a => Fin.ext (by match a with | ⟨0, _⟩ => rfl | ⟨1, _⟩ => rfl)
  have eb : idx_main_v27 (idx_main_v28 (ix2 p j)) = ix1 j :=
    funext fun a => Fin.ext (by match a with | ⟨0, _⟩ => rfl)
  simp only [val_main_v29_apply, val_main_v26_apply, val_main_v28_apply, val_main_v27_apply, val_main_v25_apply,
    val_main_v19_apply, val_main_v18_apply, val_main_cst_3_apply, val_main_v17_apply, el, er, eb, gather_dst n dst hd]
  simp only [Ideal.addf_def, Ideal.mulf_def, Ideal.ofBits_def]
  rfl

/-- The reference's last stage, with every index in range, is the score, averaging first: negative-index wrapping
    leaves an in-range index alone, each gather reads row `row (idx i)`, each `dot_general` is a sum over the 128
    features, the host's sum over the four hidden entries starts from zero, and `1 / (1 + e⁻ˣ)` is the logistic
    function. -/
theorem ref_value (n : NodeFeat.Idx → EReal) (e : EdgeFeat.Idx → EReal) (W : Weight.Idx → EReal) (b : BiasV.Idx → EReal)
    (src dst : EdgeIds.Idx → BitVec 32) (hs : ∀ i, InRange (src i)) (hd : ∀ i, InRange (dst i)) :
    val_main_v38 (F := Ideal) n e W b src dst = scoreR n e W b src dst := by
  funext o
  obtain ⟨p, z, rfl⟩ : ∃ (p : Fin 600000) (z : Fin 1), o = ix2 p z := ⟨o 0, o 1, eq_ix2 o⟩
  -- the four products the host sums for edge `p` sit at `(p, 0) … (p, 3)`
  have ei : ∀ k : Fin 4, idx_main_v31 (idx_main_v32 (ix2 p z)) k = ix2 p k := fun k =>
    funext fun a => Fin.ext (by match a with | ⟨0, _⟩ => rfl | ⟨1, _⟩ => rfl)
  simp only [val_main_v38_apply, val_main_v37_apply, val_main_cst_6_apply, val_main_v36_apply, val_main_v35_apply,
    val_main_cst_5_apply, val_main_v34_apply, val_main_v33_apply, val_main_v32_apply, val_main_v31_apply,
    val_main_cst_4_apply, val_main_v30_apply, ei, hid_src n e W b src hs, hid_dst n e W b dst hd]
  -- the words 1.0 and 0.0 are the extended reals one and zero; what is left is the logistic function spelled out
  simp only [Ideal.hostDivf_def, Ideal.hostUnary_exp_def, Ideal.hostNegf_def, Ideal.negf_def, Ideal.addf_def,
    Ideal.mulf_def, Ideal.ofBits_def, Ideal.ofBits_zero_f32, Ideal.ofBits_one_f32, zero_add]
  rfl

end Cert.ReferenceIdeal.RefValue

end
-- ==== Proof.NodeRegion.lean ====
import proofs.«400772_j9852654977718_3_alg».proof.Proof.Gen.KernelIdeal.Frame
import proofs.«400772_j9852654977718_3_alg».proof.Proof.Spec
import Idealize.ShloMosaic.Lib.Pipeline.Value
import Idealize.ShloMosaic.PureOps.Ideal.Laws
set_option maxRecDepth 16384

noncomputable section

namespace Cert.KernelIdeal.NodeRegion

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.EdgeScore

/-! ## The product at one entry

The body multiplies a block of 20000 rows of 128 features by the 128 x 4 transposed weights, contracting the feature
axis: entry (p, q) of the product is the sum over k of (row p, feature k) times (feature k, column q). -/

/-- On the left operand's row axis the operand index is the result's row. -/
theorem lhs_axis0 (i : S20000x4.Idx) (q : dot_S20000x128_S128x4_S20000x4_1_0_0_1_n_n.contr.Idx) :
    (dot_S20000x128_S128x4_S20000x4_1_0_0_1_n_n.lhsIdx i q 0).val = (i 0).val := by
  unfold DotDims.lhsIdx
  rw [dif_neg (show ¬(0 : Fin S20000x128.rank) ∈ dot_S20000x128_S128x4_S20000x4_1_0_0_1_n_n.lhsBatch by decide), dif_pos (show (0 : Fin S20000x128.rank) ∈ dot_S20000x128_S128x4_S20000x4_1_0_0_1_n_n.lhsNonContracting by decide)]
  rfl
/-- On the left operand's feature axis the operand index is the contraction position. -/
theorem lhs_axis1 (i : S20000x4.Idx) (q : dot_S20000x128_S128x4_S20000x4_1_0_0_1_n_n.contr.Idx) :
    (dot_S20000x128_S128x4_S20000x4_1_0_0_1_n_n.lhsIdx i q 1).val = (q ⟨0, by decide⟩).val :=
  dot_S20000x128_S128x4_S20000x4_1_0_0_1_n_n.lhsIdx_val_of_single rfl i q
/-- On the right operand's feature axis the operand index is the contraction position. -/
theorem rhs_axis0 (i : S20000x4.Idx) (q : dot_S20000x128_S128x4_S20000x4_1_0_0_1_n_n.contr.Idx) :
    (dot_S20000x128_S128x4_S20000x4_1_0_0_1_n_n.rhsIdx i q 0).val = (q ⟨0, by decide⟩).val :=
  dot_S20000x128_S128x4_S20000x4_1_0_0_1_n_n.rhsIdx_val_of_single rfl i q
/-- On the right operand's column axis the operand index is the result's column. -/
theorem rhs_axis1 (i : S20000x4.Idx) (q : dot_S20000x128_S128x4_S20000x4_1_0_0_1_n_n.contr.Idx) :
    (dot_S20000x128_S128x4_S20000x4_1_0_0_1_n_n.rhsIdx i q 1).val = (i 1).val := by
  unfold DotDims.rhsIdx
  rw [dif_neg (show ¬(1 : Fin S128x4.rank) ∈ dot_S20000x128_S128x4_S20000x4_1_0_0_1_n_n.rhsBatch by decide), dif_pos (show (1 : Fin S128x4.rank) ∈ dot_S20000x128_S128x4_S20000x4_1_0_0_1_n_n.rhsNonContracting by decide)]
  rfl

/-- The body's product at row p and column q: the sum over the 128 features of the row's feature times the weight. -/
theorem product_at (x0 : Vec Ideal S20000x128 .f32) (x1 : Vec Ideal S128x4 .f32) (p : Fin 20000) (q : Fin 4) :
    k0_pay1 (F := Ideal) x0 x1 (ix2 p q) = ∑ k : Fin 128, x0 (ix2 p k) * x1 (ix2 k q) := by
  unfold k0_pay1
  refine (Ideal.matmul_constant_zero_apply (φ₁ := .f32) (φ₂ := .f32) dot_S20000x128_S128x4_S20000x4_1_0_0_1_n_n none x0 (shapeCast S128x4 x1 Facts₀.shapeCasts_S128x4_S128x4) (ix2 p q)).trans ?_
  rw [shapeCast_self]
  rw [← Equiv.sum_comp (contrEquiv1 dot_S20000x128_S128x4_S20000x4_1_0_0_1_n_n 128 rfl rfl).symm]
  refine Finset.sum_congr rfl fun k _ => ?_
  have hk := contrEquiv1_symm_val dot_S20000x128_S128x4_S20000x4_1_0_0_1_n_n 128 rfl rfl k
  have el : dot_S20000x128_S128x4_S20000x4_1_0_0_1_n_n.lhsIdx (ix2 p q) ((contrEquiv1 dot_S20000x128_S128x4_S20000x4_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S20000x128_S128x4_S20000x4_1_0_0_1_n_n.rhsIdx (ix2 p q) ((contrEquiv1 dot_S20000x128_S128x4_S20000x4_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The same at any entry of the block, by its two coordinates. -/
theorem product_apply (x0 : Vec Ideal S20000x128 .f32) (x1 : Vec Ideal S128x4 .f32) (j : S20000x4.Idx) :
    k0_pay1 (F := Ideal) x0 x1 j = ∑ k : Fin 128, x0 (ix2 (j 0) k) * x1 (ix2 k (j 1)) := by
  obtain ⟨p, q, rfl⟩ : ∃ (p : Fin 20000) (q : Fin 4), j = ix2 p q := ⟨j 0, j 1, eq_ix2 j⟩
  exact product_at x0 x1 p q

/-! ## The blocks the five grid points read and write

Point t reads rows 20000 t .. 20000 t + 19999 of the node features, all of the transposed weights, and writes rows
20000 t .. 20000 t + 19999 of the table. -/

theorem zeroOffsets : (![0, 0] : Fin 2 → Nat) = fun _ => 0 := funext fun a => by
  match a with
  | ⟨0, _⟩ => rfl
  | ⟨1, _⟩ => rfl

/-- The block indices at every grid point: the feature block moves with the output block along the rows, every other
    block index is zero, and the output's row block index is at most 4. -/
theorem blockIndices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 4 :=
  (by decide +kernel : ∀ t : Fin grid0.N, _)

/-- Every one of the five row blocks of the table is some grid point's. -/
theorem blockOnto : ∀ (q0 : Fin 5) (q1 : Fin 1), ∃ t : Fin cfg0.N, win0_2.index t = ![q0.val + 0, q1.val + 0] :=
  (by decide +kernel : ∀ (q0 : Fin 5) (q1 : Fin 1), ∃ t : Fin grid0.N, win0_2.index t = ![q0.val + 0, q1.val + 0])

section Blocks
variable (V : (c : Dev nD) → (b : Ref sig .tc) → Buf (Elt Ideal) ((c : Thread nD τ).loc b))

/-- Entry x of the feature block at point t is the node features at row (block index) * 20000 + (x's row), same feature. -/
theorem featureBlock_apply (c : Dev nD) (t : Fin cfg0.N) (x : S20000x128.Idx) (i : S100000x128.Idx)
    (h0 : (i 0).val = win0_2.index t (0 : Fin 2) * 20000 + (x 0).val) (h1 : (i 1).val = (x 1).val) :
    (iblk0 (F := Ideal) V c 0 t : Vec Ideal S20000x128 .f32) x = (V c main_arg0 : S100000x128.Idx → Elt Ideal .f32) i := by
  obtain ⟨e0, e1, e2, e3, e4, e5⟩ := blockIndices t
  have h : (((cfg0.win 0).blk t).view.emb x : S100000x128.Idx) = i := by
    funext a; apply Fin.ext
    match a with
    | ⟨0, _⟩ => show win0_0.index t (0 : Fin 2) * 20000 + 1 * (x 0).val = (i 0).val; omega
    | ⟨1, _⟩ => show win0_0.index t (1 : Fin 2) * 128 + 1 * (x 1).val = (i 1).val; omega
  exact congrArg (V c main_arg0 : S100000x128.Idx → Elt Ideal .f32) h

/-- Entry x of the weight block at any point is the transposed weights at the same entry. -/
theorem weightBlock_apply (c : Dev nD) (t : Fin cfg0.N) (x y : S128x4.Idx)
    (h0 : (y 0).val = (x 0).val) (h1 : (y 1).val = (x 1).val) :
    (iblk0 (F := Ideal) V c 1 t : Vec Ideal S128x4 .f32) x = (V c main_v0 : S128x4.Idx → Elt Ideal .f32) y := by
  obtain ⟨e0, e1, e2, e3, e4, e5⟩ := blockIndices t
  have h : (((cfg0.win 1).blk t).view.emb x : S128x4.Idx) = y := by
    funext a; apply Fin.ext
    match a with
    | ⟨0, _⟩ => show win0_1.index t (0 : Fin 2) * 128 + 1 * (x 0).val = (y 0).val; omega
    | ⟨1, _⟩ => show win0_1.index t (1 : Fin 2) * 4 + 1 * (x 1).val = (y 1).val; omega
  exact congrArg (V c main_v0 : S128x4.Idx → Elt Ideal .f32) h

/-- The product of the two blocks at point t, at entry j, is the projected node table at the entry i that sits
    (block index) * 20000 rows further down, same column. -/
theorem blockProduct_apply (c : Dev nD) (t : Fin cfg0.N) (j : S20000x4.Idx) (i : S100000x4.Idx)
    (h0 : (i 0).val = win0_2.index t (0 : Fin 2) * 20000 + (j 0).val) (h1 : (i 1).val = (j 1).val) :
    k0_pay1 (F := Ideal) (iblk0 V c 0 t) (iblk0 V c 1 t) j = nodeTable (V c main_arg0) (V c main_v0) i := by
  refine (product_apply (iblk0 V c 0 t) (iblk0 V c 1 t) j).trans ?_
  unfold nodeTable
  refine Finset.sum_congr rfl fun k _ => ?_
  have hA := featureBlock_apply V c t (ix2 (j 0) k) (ix2 (i 0) k) h0 rfl
  have hB := weightBlock_apply V c t (ix2 k (j 1)) (ix2 k (i 1)) rfl h1
  exact congrArg₂ (fun a b : EReal => a * b) hA hB

/-- What point t writes back is its block of the projected node table. -/
theorem writtenBlock (c : Dev nD) (t : Fin cfg0.N) :
    (dat0 (F := Ideal) V c).flushed 2 t = ((cfg0.win 2).blk t).view.read (Elt Ideal) (nodeTable (V c main_arg0) (V c main_v0)) := by
  show (cfg0.win 2).cut (grid0.coords t) ((dat0 (F := Ideal) V c).after 2 t) = _
  rw [after0_2]
  unfold out0_2
  rw [View.canon_unit_zero zeroOffsets]
  simp only [View.ld_unit_zero (S := S20000x128) zeroOffsets, View.ld_unit_zero (S := S128x4) zeroOffsets]
  obtain ⟨e0, e1, e2, e3, e4, e5⟩ := blockIndices t
  funext j
  show k0_pay1 (F := Ideal) (iblk0 V c 0 t) (iblk0 V c 1 t) j = nodeTable (V c main_arg0) (V c main_v0) (((cfg0.win 2).blk t).view.emb j)
  refine blockProduct_apply V c t j (((cfg0.win 2).blk t).view.emb j) ?_ ?_
  · show win0_2.index t (0 : Fin 2) * 20000 + 1 * (j 0).val = win0_2.index t (0 : Fin 2) * 20000 + (j 0).val; omega
  · show win0_2.index t (1 : Fin 2) * 4 + 1 * (j 1).val = (j 1).val; omega

end Blocks

/-- An entry of the table is in point t's block iff each coordinate is in the block's range on its axis. -/
theorem mem_block (t : Fin cfg0.N) (i : S100000x4.Idx) :
    i ∈ ((cfg0.win 2).blk t).view.set ↔ ∀ a : Fin 2, win0_2.index t a * S20000x4.size a ≤ (i a).val ∧ (i a).val < win0_2.index t a * S20000x4.size a + S20000x4.size a := by
  show i ∈ ((View.whole main_v1).slice (win0_2.rect t)).set ↔ _
  rw [View.set_slice_whole, Rect.mem_set_unit]
  exact Iff.rfl

/-- Every entry of the table is written: row r lies in the block of the point whose block index is r / 20000. -/
theorem covered (i : S100000x4.Idx) :
    ∃ t : Fin cfg0.N, (cfg0.win 2).flush t = true ∧ i ∈ ((cfg0.win 2).blk t).view.set := by
  have hi0 : (i 0).val < 100000 := (i 0).isLt
  have hi1 : (i 1).val < 4 := (i 1).isLt
  obtain ⟨t, ht⟩ := blockOnto ⟨(i 0).val / 20000, by omega⟩ ⟨(i 1).val / 4, by omega⟩
  have q0 : win0_2.index t (0 : Fin 2) = (i 0).val / 20000 + 0 := congrFun ht 0
  have q1 : win0_2.index t (1 : Fin 2) = (i 1).val / 4 + 0 := congrFun ht 1
  refine ⟨t, flush0_2 t, ?_⟩
  rw [mem_block]
  intro a
  match a with
  | ⟨0, _⟩ => show win0_2.index t (0 : Fin 2) * 20000 ≤ (i 0).val ∧ (i 0).val < win0_2.index t (0 : Fin 2) * 20000 + 20000; omega
  | ⟨1, _⟩ => show win0_2.index t (1 : Fin 2) * 4 ≤ (i 1).val ∧ (i 1).val < win0_2.index t (1 : Fin 2) * 4 + 4; omega

/-- Region 0 leaves, in its output array, the projected node table of the arrays it was entered with: row `r`,
    column `j` is `∑ₖ n r k · Wᵀ k j`. Each of the five grid points writes rows `20000·t … 20000·t + 19999`. -/
theorem nodeTable_array (V : (c : Dev nD) → (b : Ref sig .tc) → Buf (Elt Ideal) ((c : Thread nD τ).loc b)) (c : Dev nD) :
    (dat0 (F := Ideal) V c).arrAt 2 cfg0.N = nodeTable (V c main_arg0) (V c main_v0) :=
  (dat0 (F := Ideal) V c).arrAt_eq_of_cover 2 (nodeTable (V c main_arg0) (V c main_v0)) (fun t _ => writtenBlock V c t) covered

end Cert.KernelIdeal.NodeRegion

end
-- ==== Proof.EdgeRegion.lean ====
import proofs.«400772_j9852654977718_3_alg».proof.Proof.Gen.KernelIdeal.Frame
import proofs.«400772_j9852654977718_3_alg».proof.Proof.Spec
import Idealize.ShloMosaic.Lib.Pipeline.Value
import Idealize.ShloMosaic.Lib.ValueLayout
import Idealize.ShloMosaic.PureOps.Ideal.Laws
set_option maxRecDepth 16384

noncomputable section

namespace Cert.KernelIdeal.EdgeRegion

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.EdgeScore

/-! ## One entry of the stored block

The body projects its 20000 edge rows through the weights (a product summed over the 128 features), adds the projection
to each of the two gathered blocks, halves, adds the bias, multiplies the two hidden blocks entry by entry, sums the four
lanes of each row and applies the logistic function. Read at row `p` this is the score formula over the rows of the
blocks. -/

/-- The offsets `(0, 0)` are the zero function. -/
theorem hz2 : (![0, 0] : Fin 2 → Nat) = fun _ => 0 := funext fun a => by fin_cases a <;> rfl

/-- The offset `(0)` is the zero function. -/
theorem hz1 : (![0] : Fin 1 → Nat) = fun _ => 0 := funext fun a => by fin_cases a <;> rfl

/-- On the left operand's row axis the product reads the result's row. -/
private theorem lhs_axis0 (i : S20000x4.Idx) (q : dot_S20000x128_S128x4_S20000x4_1_0_0_1_n_n.contr.Idx) :
    (dot_S20000x128_S128x4_S20000x4_1_0_0_1_n_n.lhsIdx i q 0).val = (i 0).val := by
  unfold DotDims.lhsIdx
  rw [dif_neg (show ¬(0 : Fin S20000x128.rank) ∈ dot_S20000x128_S128x4_S20000x4_1_0_0_1_n_n.lhsBatch by decide), dif_pos (show (0 : Fin S20000x128.rank) ∈ dot_S20000x128_S128x4_S20000x4_1_0_0_1_n_n.lhsNonContracting by decide)]
  rfl

/-- On the left operand's feature axis it reads the summation index. -/
private theorem lhs_axis1 (i : S20000x4.Idx) (q : dot_S20000x128_S128x4_S20000x4_1_0_0_1_n_n.contr.Idx) :
    (dot_S20000x128_S128x4_S20000x4_1_0_0_1_n_n.lhsIdx i q 1).val = (q ⟨0, by decide⟩).val :=
  dot_S20000x128_S128x4_S20000x4_1_0_0_1_n_n.lhsIdx_val_of_single rfl i q

/-- On the right operand's feature axis it reads the summation index. -/
private theorem rhs_axis0 (i : S20000x4.Idx) (q : dot_S20000x128_S128x4_S20000x4_1_0_0_1_n_n.contr.Idx) :
    (dot_S20000x128_S128x4_S20000x4_1_0_0_1_n_n.rhsIdx i q 0).val = (q ⟨0, by decide⟩).val :=
  dot_S20000x128_S128x4_S20000x4_1_0_0_1_n_n.rhsIdx_val_of_single rfl i q

/-- On the right operand's column axis it reads the result's column. -/
private theorem rhs_axis1 (i : S20000x4.Idx) (q : dot_S20000x128_S128x4_S20000x4_1_0_0_1_n_n.contr.Idx) :
    (dot_S20000x128_S128x4_S20000x4_1_0_0_1_n_n.rhsIdx i q 1).val = (i 1).val := by
  unfold DotDims.rhsIdx
  rw [dif_neg (show ¬(1 : Fin S128x4.rank) ∈ dot_S20000x128_S128x4_S20000x4_1_0_0_1_n_n.rhsBatch by decide), dif_pos (show (1 : Fin S128x4.rank) ∈ dot_S20000x128_S128x4_S20000x4_1_0_0_1_n_n.rhsNonContracting by decide)]
  rfl

/-- The projection of the edge block into a zero accumulator, entry `(p, j)`: `∑ₖ x p k · w k j`. -/
private theorem proj_apply (x0 : FVec Ideal S20000x128 .f32) (x1 : FVec Ideal S128x4 .f32) (p : Fin 20000) (j : Fin 4) :
    matmul dot_S20000x128_S128x4_S20000x4_1_0_0_1_n_n none x0 x1 (constant S20000x4 .f32 0x00000000#32) (ix2 p j)
      = ∑ k : Fin 128, x0 (ix2 p k) * x1 (ix2 k j) := by
  refine (Ideal.matmul_constant_zero_apply dot_S20000x128_S128x4_S20000x4_1_0_0_1_n_n none x0 x1 (ix2 p j)).trans ?_
  rw [← Equiv.sum_comp (contrEquiv1 dot_S20000x128_S128x4_S20000x4_1_0_0_1_n_n 128 rfl rfl).symm]
  refine Finset.sum_congr rfl fun k _ => ?_
  have hk := contrEquiv1_symm_val dot_S20000x128_S128x4_S20000x4_1_0_0_1_n_n 128 rfl rfl k
  have el : dot_S20000x128_S128x4_S20000x4_1_0_0_1_n_n.lhsIdx (ix2 p j) ((contrEquiv1 dot_S20000x128_S128x4_S20000x4_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S20000x128_S128x4_S20000x4_1_0_0_1_n_n.rhsIdx (ix2 p j) ((contrEquiv1 dot_S20000x128_S128x4_S20000x4_1_0_0_1_n_n 128 rfl rfl).symm k) = ix2 k j := funext fun a => Fin.ext (by
    match a with
    | ⟨0, _⟩ => exact (rhs_axis0 _ _).trans hk
    | ⟨1, _⟩ => exact rhs_axis1 _ _)
  rw [el, er]

/-- The sum over the four lanes of a row. -/
private theorem laneSum_apply (v : FVec Ideal S20000x4 .f32) (h : S20000x4.Reduces [1] S20000) (hφ : FKind.Formats .f32)
    (hacc : (0x00000000#32 : BitVec 32) = FKind.add.neutral .f32 hφ) (p : Fin 20000) :
    multiReduction .add [1] S20000 v 0x00000000#32 h hφ hacc (ix1 p) = ∑ j : Fin 4, v (ix2 p j) := by
  refine (Ideal.multiReduction_add_single v 0x00000000#32 h hφ hacc (ix1 p)).trans ?_
  refine Finset.sum_congr rfl fun k _ => ?_
  refine congrArg v (funext fun a => Fin.ext ?_)
  match a with
  | ⟨0, _⟩ => rfl
  | ⟨1, _⟩ => rfl

/-- A vector of `a` entries viewed as one column reads, at `(i, u)`, entry `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- The bias as one row, repeated down the block, reads its entry `j` in column `j`. -/
private theorem bias_apply (x4 : FVec Ideal S4 .f32) (h1 : S4.ShapeCasts S1x4) (h2 : S1x4.Broadcasts S20000x4)
    (p : Fin 20000) (j : Fin 4) :
    broadcastTo S20000x4 (shapeCast S1x4 x4 h1) h2 (ix2 p j) = x4 (ix1 j) :=
  (broadcastTo_1b_ab_apply (shapeCast S1x4 x4 h1) h2 p j).trans (shapeCast_a_1a_apply x4 h1 0 j)

/-- One hidden block, entry `(p, j)`: the gathered entry plus the projected edge, halved, plus the bias. -/
private theorem hid_apply (x0 : FVec Ideal S20000x128 .f32) (x1 : FVec Ideal S128x4 .f32) (x4 : FVec Ideal S4 .f32)
    (x5 : FVec Ideal S20000x4 .f32) (h0 : S20000x4.ShapeCasts S20000x4) (hw : S128x4.ShapeCasts S128x4)
    (h1 : S4.ShapeCasts S1x4) (h2 : S1x4.Broadcasts S20000x4) (p : Fin 20000) (j : Fin 4) :
    addf (mulf (addf (shapeCast S20000x4 x5 h0)
          (matmul dot_S20000x128_S128x4_S20000x4_1_0_0_1_n_n none x0 (shapeCast S128x4 x1 hw) (constant S20000x4 .f32 0x00000000#32)))
        (broadcast S20000x4 (Scalar.ofBits (F := Ideal) .f32 0x3F000000#32)))
      (broadcastTo S20000x4 (shapeCast S1x4 x4 h1) h2) (ix2 p j)
      = (x5 (ix2 p j) + ∑ k : Fin 128, x0 (ix2 p k) * x1 (ix2 k j)) * half + x4 (ix1 j) := by
  show (shapeCast S20000x4 x5 h0 (ix2 p j)
        + matmul dot_S20000x128_S128x4_S20000x4_1_0_0_1_n_n none x0 (shapeCast S128x4 x1 hw) (constant S20000x4 .f32 0x00000000#32) (ix2 p j))
      * half + broadcastTo S20000x4 (shapeCast S1x4 x4 h1) h2 (ix2 p j) = _
  rw [shapeCast_self, shapeCast_self, proj_apply, bias_apply]

/-- The logistic function is applied entry by entry. -/
private theorem logistic_apply {s : Shape} (x : FVec Ideal s .f32) (i : s.Idx) : logistic x i = Ideal.logistic (x i) := rfl

/-- THE STORED BLOCK AT ROW `p`: the logistic function of the sum over the four lanes of the product of the two hidden
    entries, each the gathered entry plus the row's projection, halved, plus the bias. -/
theorem pay_apply (x0 : FVec Ideal S20000x128 .f32) (x1 : FVec Ideal S128x4 .f32) (x4 : FVec Ideal S4 .f32)
    (x5 x13 : FVec Ideal S20000x4 .f32) (p : Fin 20000) (u : Fin 1) :
    k1_pay1 (F := Ideal) x0 x1 x4 x5 x13 (ix2 p u)
      = Ideal.logistic (∑ j : Fin 4,
          ((x5 (ix2 p j) + ∑ k : Fin 128, x0 (ix2 p k) * x1 (ix2 k j)) * half + x4 (ix1 j))
            * ((x13 (ix2 p j) + ∑ k : Fin 128, x0 (ix2 p k) * x1 (ix2 k j)) * half + x4 (ix1 j))) := by
  unfold k1_pay1
  refine (logistic_apply _ (ix2 p u)).trans (congrArg Ideal.logistic ?_)
  refine (shapeCast_a_a1_apply _ _ p u).trans ?_
  refine (laneSum_apply _ _ _ _ p).trans ?_
  refine Finset.sum_congr rfl fun j _ => ?_
  refine (mulf_apply _ _ (ix2 p j)).trans ?_
  exact congrArg₂ (fun a b : EReal => a * b) (hid_apply x0 x1 x4 x5 _ _ _ _ p j) (hid_apply x0 x1 x4 x13 _ _ _ _ p j)

/-- The same entry when the five blocks are rows of five arrays: the edge block's row `p` is the edge array's row
    `o 0`, the gathered blocks' rows likewise, the weights and the bias are whole. Then the entry is the score of row
    `o 0`. -/
private theorem block_point (e : EdgeFeat.Idx → EReal) (s d : EdgeTab.Idx → EReal) (Wt : WeightT.Idx → EReal) (b : BiasV.Idx → EReal)
    (x0 : FVec Ideal S20000x128 .f32) (x1 x2 : FVec Ideal S20000x4 .f32) (x3 : FVec Ideal S128x4 .f32) (x4 : FVec Ideal S4 .f32)
    (p : Fin 20000) (u : Fin 1) (o : Scores.Idx)
    (h0 : ∀ k : Fin 128, x0 (ix2 p k) = e (ix2 (o 0) k))
    (h1 : ∀ j : Fin 4, x1 (ix2 p j) = s (ix2 (o 0) j))
    (h2 : ∀ j : Fin 4, x2 (ix2 p j) = d (ix2 (o 0) j))
    (h3 : ∀ (k : Fin 128) (j : Fin 4), x3 (ix2 k j) = Wt (ix2 k j))
    (h4 : ∀ j : Fin 4, x4 (ix1 j) = b (ix1 j)) :
    k1_pay1 (F := Ideal) x0 x3 x4 x1 x2 (ix2 p u) = edgeScore e s d Wt b o := by
  refine (pay_apply x0 x3 x4 x1 x2 p u).trans ?_
  unfold edgeScore
  refine congrArg Ideal.logistic (Finset.sum_congr rfl fun j _ => ?_)
  have hs : ∑ k : Fin 128, x0 (ix2 p k) * x3 (ix2 k j) = ∑ k : Fin 128, e (ix2 (o 0) k) * Wt (ix2 k j) :=
    Finset.sum_congr rfl fun k _ => by rw [h0 k, h3 k j]
  rw [h1 j, h2 j, h4 j, hs]

/-! ## The block a grid point writes back

Grid point `t` reads rows `20000·t … 20000·t + 19999` of the edge array and of the two gathered arrays, the whole weights
and the whole bias, and writes the same rows of the score array. -/

/-- The index maps over the thirty points: the three row-blocked inputs move with the output, their column block is
    `0`; the weights' and the bias's block is always the first. -/
theorem idx_facts : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = win1_5.index t (0 : Fin 2)
    ∧ win1_2.index t (1 : Fin 2) = 0
    ∧ win1_3.index t (0 : Fin 2) = 0
    ∧ win1_3.index t (1 : Fin 2) = 0
    ∧ win1_4.index t (0 : Fin 1) = 0 :=
  (by decide +kernel : ∀ t : Fin grid1.N, _)

/-- Every one of the thirty row blocks of the score array is some point's. -/
theorem idx_onto : ∀ q0 : Fin 30, ∃ t : Fin cfg1.N, win1_5.index t = ![q0.val, 0] :=
  (by decide +kernel : ∀ q0 : Fin 30, ∃ t : Fin grid1.N, win1_5.index t = ![q0.val, 0])

/-- An entry of the block point `t` computes is the score of the array row it is written to. -/
private theorem block_value (V : (c : Dev nD) → (b : Ref sig .tc) → Buf (Elt Ideal) ((c : Thread nD τ).loc b)) (c : Dev nD)
    (t : Fin cfg1.N) (y : S20000x1.Idx) :
    k1_pay1 (F := Ideal) (iblk1 V c 0 t) (iblk1 V c 3 t) (iblk1 V c 4 t) (iblk1 V c 1 t) (iblk1 V c 2 t) y
      = edgeScore (V c main_arg1) (V c main_v4) (V c main_v5) (V c main_v0) (V c main_arg3) (((cfg1.win 5).blk t).view.emb y) := by
  obtain ⟨p, u, rfl⟩ : ∃ (p : Fin 20000) (u : Fin 1), y = ix2 p u := ⟨y 0, y 1, eq_ix2 y⟩
  obtain ⟨e00, e01, e10, e11, e20, e21, e30, e31, e40⟩ := idx_facts t
  refine block_point (V c main_arg1) (V c main_v4) (V c main_v5) (V c main_v0) (V c main_arg3)
    (iblk1 V c 0 t) (iblk1 V c 1 t) (iblk1 V c 2 t) (iblk1 V c 3 t) (iblk1 V c 4 t) p u
    (((cfg1.win 5).blk t).view.emb (ix2 p u)) ?_ ?_ ?_ ?_ ?_
  · intro k
    show V c main_arg1 (((cfg1.win 0).blk t).view.emb (ix2 p k)) = _
    refine congrArg (V c main_arg1) (funext fun a => Fin.ext ?_)
    match a with
    | ⟨0, _⟩ => show win1_0.index t (0 : Fin 2) * 20000 + 1 * p.val = win1_5.index t (0 : Fin 2) * 20000 + 1 * p.val; omega
    | ⟨1, _⟩ => show win1_0.index t (1 : Fin 2) * 128 + 1 * k.val = k.val; omega
  · intro j
    show V c main_v4 (((cfg1.win 1).blk t).view.emb (ix2 p j)) = _
    refine congrArg (V c main_v4) (funext fun a => Fin.ext ?_)
    match a with
    | ⟨0, _⟩ => show win1_1.index t (0 : Fin 2) * 20000 + 1 * p.val = win1_5.index t (0 : Fin 2) * 20000 + 1 * p.val; omega
    | ⟨1, _⟩ => show win1_1.index t (1 : Fin 2) * 4 + 1 * j.val = j.val; omega
  · intro j
    show V c main_v5 (((cfg1.win 2).blk t).view.emb (ix2 p j)) = _
    refine congrArg (V c main_v5) (funext fun a => Fin.ext ?_)
    match a with
    | ⟨0, _⟩ => show win1_2.index t (0 : Fin 2) * 20000 + 1 * p.val = win1_5.index t (0 : Fin 2) * 20000 + 1 * p.val; omega
    | ⟨1, _⟩ => show win1_2.index t (1 : Fin 2) * 4 + 1 * j.val = j.val; omega
  · intro k j
    show V c main_v0 (((cfg1.win 3).blk t).view.emb (ix2 k j)) = _
    refine congrArg (V c main_v0) (funext fun a => Fin.ext ?_)
    match a with
    | ⟨0, _⟩ => show win1_3.index t (0 : Fin 2) * 128 + 1 * k.val = k.val; omega
    | ⟨1, _⟩ => show win1_3.index t (1 : Fin 2) * 4 + 1 * j.val = j.val; omega
  · intro j
    show V c main_arg3 (((cfg1.win 4).blk t).view.emb (ix1 j)) = _
    refine congrArg (V c main_arg3) (funext fun a => Fin.ext ?_)
    match a with
    | ⟨0, _⟩ => show win1_4.index t (0 : Fin 1) * 4 + 1 * j.val = j.val; omega

/-- WHAT POINT `t` WRITES BACK is its block of rows of the score array. -/
theorem flushed_eq (V : (c : Dev nD) → (b : Ref sig .tc) → Buf (Elt Ideal) ((c : Thread nD τ).loc b)) (c : Dev nD)
    (t : Fin cfg1.N) :
    (dat1 (F := Ideal) V c).flushed 5 t
      = ((cfg1.win 5).blk t).view.read (Elt Ideal)
          (edgeScore (V c main_arg1) (V c main_v4) (V c main_v5) (V c main_v0) (V c main_arg3)) := by
  show (cfg1.win 5).cut (grid1.coords t) ((dat1 (F := Ideal) V c).after 5 t) = _
  rw [after1_5]
  unfold out1_5
  rw [View.canon_unit_zero hz2]
  simp only [View.ld_unit_zero (S := S20000x128) hz2, View.ld_unit_zero (S := S128x4) hz2,
    View.ld_unit_zero (S := S4) hz1, View.ld_unit_zero (S := S20000x4) hz2]
  funext j
  exact block_value V c t j

/-- A row of the score array is in point `t`'s block iff it lies in the block's range on each axis. -/
theorem mem_blk (t : Fin cfg1.N) (i : S600000x1.Idx) :
    i ∈ ((cfg1.win 5).blk t).view.set ↔ ∀ a : Fin 2, win1_5.index t a * S20000x1.size a ≤ (i a).val ∧ (i a).val < win1_5.index t a * S20000x1.size a + S20000x1.size a := by
  show i ∈ ((View.whole main_v6).slice (win1_5.rect t)).set ↔ _
  rw [View.set_slice_whole, Rect.mem_set_unit]
  exact Iff.rfl

/-- Row `r` of the score array is in the block of the point whose block index is `r / 20000`. -/
theorem covered (i : S600000x1.Idx) :
    ∃ t : Fin cfg1.N, (cfg1.win 5).flush t = true ∧ i ∈ ((cfg1.win 5).blk t).view.set := by
  have hi0 : (i 0).val < 600000 := (i 0).isLt
  have hi1 : (i 1).val < 1 := (i 1).isLt
  obtain ⟨t, ht⟩ := idx_onto ⟨(i 0).val / 20000, by omega⟩
  have q0 : win1_5.index t (0 : Fin 2) = (i 0).val / 20000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 20000 ≤ (i 0).val ∧ (i 0).val < win1_5.index t (0 : Fin 2) * 20000 + 20000; omega
  | ⟨1, _⟩ => show win1_5.index t (1 : Fin 2) * 1 ≤ (i 1).val ∧ (i 1).val < win1_5.index t (1 : Fin 2) * 1 + 1; omega

/-- Region 1 leaves, in its output array, the edge scores of the arrays it was entered with. Each of the thirty grid
    points writes rows `20000·t … 20000·t + 19999`. -/
theorem edgeScore_array (V : (c : Dev nD) → (b : Ref sig .tc) → Buf (Elt Ideal) ((c : Thread nD τ).loc b)) (c : Dev nD) :
    (dat1 (F := Ideal) V c).arrAt 5 cfg1.N
      = edgeScore (V c main_arg1) (V c main_v4) (V c main_v5) (V c main_v0) (V c main_arg3) :=
  (dat1 (F := Ideal) V c).arrAt_eq_of_cover 5
    (edgeScore (V c main_arg1) (V c main_v4) (V c main_v5) (V c main_v0) (V c main_arg3))
    (fun t _ => flushed_eq V c t) (fun i => covered i)

end Cert.KernelIdeal.EdgeRegion

end
-- ==== Proof.HostStretch.lean ====
import proofs.«400772_j9852654977718_3_alg».proof.Proof.Gen.KernelIdeal.Frame
import proofs.«400772_j9852654977718_3_alg».proof.Proof.Spec
import proofs.«400772_j9852654977718_3_alg».proof.Proof.LibGatherRows
import Idealize.ShloMosaic.Lib.StableHlo.Run
import Idealize.ShloMosaic.Lib.StableHlo.Predicate
set_option maxRecDepth 16384

noncomputable section

namespace Cert.KernelIdeal.HostStretch

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.EdgeScore
open Idealize.ShloMosaic.GatherRows

open Idealize.ShloMosaic.StableHlo.Predicate

variable (m : (ℓ : Loc nD τ sig) → Buf (Elt Ideal) ℓ) (ρ : Dev nD → PrngReg)

/-! ## Words: an index word in range passes the clip, the wrap and the bounds test unchanged -/

/-- The clip to [0, 99999] (a maximum with 0, then a minimum with 99999, both signed) is the identity on a word in range. -/
private theorem clip_word {x : BitVec 32} (h : InRange x) : IntOp.minsi 99999#32 (IntOp.maxsi 0#32 x) = x := by
  obtain ⟨h0, h1⟩ := h
  have e1 : (99999#32 : BitVec 32).toInt = 99999 := by decide
  have c0 : ¬ (x.slt 0#32 = true) := by
    rw [BitVec.slt_iff_toInt_lt, BitVec.toInt_zero]; omega
  have hmax : IntOp.maxsi 0#32 x = x := by
    unfold IntOp.maxsi
    rw [if_neg c0]
  rw [hmax]
  have c1 : ¬ ((99999#32 : BitVec 32).slt x = true) := by
    rw [BitVec.slt_iff_toInt_lt, e1]; omega
  unfold IntOp.minsi
  rw [if_neg c1]

/-- A word in range is not negative: the signed comparison with 0 answers the bit 0. -/
private theorem slt_zero_bit {x : BitVec 32} (h : InRange x) : IntOp.cmpi .slt x 0#32 = 0#1 := by
  obtain ⟨h0, h1⟩ := h
  have hc : x.slt 0#32 = false := by
    cases hb : x.slt 0#32 with
    | false => rfl
    | true =>
      have := BitVec.slt_iff_toInt_lt.mp hb
      rw [BitVec.toInt_zero] at this
      omega
  show BitVec.ofBool (x.slt 0#32) = 0#1
  rw [hc]; rfl

/-- A word in range passes both bounds tests: 0 ≤ x and x ≤ 99999, signed. -/
private theorem bounds_bit {x : BitVec 32} (h : InRange x) :
    IntOp.andi (IntOp.cmpi .sge x 0#32) (IntOp.cmpi .sle x 99999#32) = 1#1 := by
  obtain ⟨h0, h1⟩ := h
  have e1 : (99999#32 : BitVec 32).toInt = 99999 := by decide
  have a : (0#32 : BitVec 32).sle x = true := by
    rw [BitVec.sle_iff_toInt_le, BitVec.toInt_zero]; exact h0
  have b : x.sle 99999#32 = true := by
    rw [BitVec.sle_iff_toInt_le, e1]; omega
  show IntOp.andi (BitVec.ofBool ((0#32 : BitVec 32).sle x)) (BitVec.ofBool (x.sle 99999#32)) = 1#1
  rw [a, b]; rfl

/-! ## A conjunction of ones is one -/

/-- A left fold of the bitwise and, started at 1 over terms that are all 1, is 1. -/
private theorem foldl_andi_ones {ι : Type} (f : ι → BitVec 1) (hf : ∀ n, f n = 1#1) (l : List ι) :
    l.foldl (fun r n => IntOp.andi r (f n)) 1#1 = 1#1 := by
  induction l with
  | nil => rfl
  | cons a l ih =>
    have h11 : IntOp.andi (1#1 : BitVec 1) (f a) = 1#1 := by rw [hf a]; decide
    show l.foldl (fun r n => IntOp.andi r (f n)) (IntOp.andi 1#1 (f a)) = 1#1
    rw [h11]; exact ih

/-- An and-reduction from 1 of an array of ones is 1 at every result index, whatever the axes. -/
private theorem reduce_andi_ones {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  rw [Host.reduce_eq_foldl, hinit]
  exact foldl_andi_ones x hx _

/-- A select on a condition that is 1 everywhere is its first branch. -/
private theorem select_of_ones {s : Shape} {α : Type} (cnd : IVec s 1) (a b : s.Idx → α) (h : ∀ i, cnd i = 1#1) :
    select cnd a b = a := by
  funext i
  rw [select_apply, h i, select_one]

/-- The two spellings of the rank-1 index at a coordinate agree. -/
private theorem ofFin_eq_ix1 {n : Nat} (p : Fin n) : Shape.Idx.ofFin p = ix1 p := by
  funext a
  match a with
  | ⟨0, _⟩ => exact Fin.ext rfl

/-! ## The operations between the regions, as functions of what they read -/

/-- The clip of an index vector between two scalars: the minimum with the upper one of the maximum with the lower one. -/
private def clipV (lo hi : IVec S_ 32) (x : IVec S600000 32) : IVec S600000 32 :=
  minsi (broadcastInDim S600000 ![] bcast_S_S600000 hi) (maxsi (broadcastInDim S600000 ![] bcast_S_S600000 lo) x)

/-- The wrap of negative indices: x + 100000 where x < 0, else x. -/
private def wrapV (x : IVec S600000 32) : IVec S600000 32 :=
  select (cmpi .slt x (broadcastInDim S600000 ![] bcast_S_S600000 (constantI S_ 32 0#32)))
    (addi x (broadcastInDim S600000 ![] bcast_S_S600000 (constantI S_ 32 100000#32))) x

/-- The index vector as a column of start indices. -/
private def colV (x : IVec S600000 32) : IVec S600000x1 32 :=
  broadcastInDim S600000x1 ![0] bcast_S600000_S600000x1_0 x

/-- The in-bounds mask of a column of start indices: per row, the conjunction over the row's one entry of
    0 ≤ entry and entry ≤ 99999. -/
private def maskV (col : IVec S600000x1 32) : IVec S600000 1 :=
  Host.reduce IntOp.andi
    (andi (cmpi .sge col (broadcastInDim S600000x1 ![] bcast_S_S600000x1 (constantI S_ 32 0#32)))
      (cmpi .sle col (broadcastInDim S600000x1 ![0, 1] bcast_S1x1_S600000x1_0_1
        (broadcastInDim S1x1 ![1] bcast_S1_S1x1_1 (constantI S1 32 99999#32)))))
    (constantI S_ 1 1#1) reducesTo_S600000x1_S600000_d1 h_S_

/-- The take of rows of a [100000, 4] table at an index vector: wrap, gather the rows at the column of wrapped indices,
    and put the not-a-number pattern where the mask is off. -/
private def takeT (tab : FVec Ideal S100000x4 .f32) (idx : IVec S600000 32) : FVec Ideal S600000x4 .f32 :=
  select (broadcastInDim S600000x4 ![0] bcast_S600000_S600000x4_0 (maskV (colV (wrapV idx))))
    (Host.gather gather_S100000x4_S600000x1_S600000x4_1_0_n_n_0_1_14 tab (colV (wrapV idx)))
    (broadcastInDim S600000x4 ![] bcast_S_S600000x4 (constant (F := Ideal) S_ .f32 0x7FC00000#32))

/-- With both scalars the constants 0 and 99999, the clip is the identity on indices in range. -/
private theorem clipV_id (src : IVec S600000 32) (hs : ∀ i, InRange (src i)) :
    clipV (constantI S_ 32 0#32) (constantI S_ 32 99999#32) src = src := by
  funext i
  show IntOp.minsi 99999#32 (IntOp.maxsi 0#32 (src i)) = src i
  exact clip_word (hs i)

/-- THE TAKE AT AN ENTRY: with every index in range nothing wraps, the mask is all ones, and entry (p, q) is the table's
    row (row (src p)), column q. -/
private theorem takeT_at (tab : FVec Ideal S100000x4 .f32) (src : IVec S600000 32) (hs : ∀ i, InRange (src i))
    (p : Fin 600000) (q : Fin 4) : takeT tab src (ix2 p q) = tab (ix2 (row (src (ix1 p))) q) := by
  -- no index is negative: the wrap leaves the vector alone
  have hwrap : wrapV src = src := by
    funext i
    show Scalar.select (IntOp.cmpi .slt (src i) 0#32) (IntOp.addi (src i) 100000#32) (src i) = src i
    rw [slt_zero_bit (hs i), select_zero]
  -- every entry of the column is an entry of the vector, so in range
  have hcol : ∀ j, InRange (colV src j) := fun j => by
    unfold colV broadcastInDim
    exact hs _
  -- the mask is all ones
  have hmask : ∀ k, maskV (colV src) k = 1#1 := by
    intro k
    unfold maskV
    refine reduce_andi_ones _ _ _ _ (fun j => ?_) (fun _ => rfl) k
    show IntOp.andi (IntOp.cmpi .sge (colV src j) 0#32) (IntOp.cmpi .sle (colV src j) 99999#32) = 1#1
    exact bounds_bit (hcol j)
  have hC : ∀ i, broadcastInDim S600000x4 ![0] bcast_S600000_S600000x4_0 (maskV (colV src)) i = 1#1 := fun i => by
    unfold broadcastInDim
    exact hmask _
  -- the column at row p is the vector at p
  have hcolp : colV src (ixP p) = src (ix1 p) :=
    (bcast_col1 bcast_S600000_S600000x1_0 src p).trans (congrArg src (ofFin_eq_ix1 p))
  unfold takeT
  rw [hwrap, select_of_ones _ _ _ hC]
  refine (gather_rows gather_S100000x4_S600000x1_S600000x4_1_0_n_n_0_1_14 rfl rfl rfl rfl rfl tab (colV src) p q (by omega)).trans ?_
  exact congrArg (fun x : BitVec 32 => tab (ix2 (row x) q)) hcolp

/-- The take as a whole array. -/
private theorem takeT_eq (tab : FVec Ideal S100000x4 .f32) (src : IVec S600000 32) (hs : ∀ i, InRange (src i)) :
    takeT tab src = fun i => tab (ix2 (row (src (ix1 (i 0)))) (i 1)) := by
  funext i
  exact (congrArg (takeT tab src) (eq_ix2 i)).trans (takeT_at tab src hs (i 0) (i 1))

/-! ## The stretches' results at the buffers the second region reads, over any contents before the stretch -/

/-- A transport along an equation of types and back along its converse is the identity. -/
private theorem cast_cast_self {α β : Type} (h : α = β) (h' : β = α) (v : β) : cast h (cast h' v) = v := by
  subst h; rfl

section Folds
variable (V : Valuation τ sig (Elt Ideal))

/-- The first pair of scalar constants. -/
private theorem lo4_fold : (StableHlo.after (hostOps1 (F := Ideal)) V (Proc.devRef .tc main_c) : IVec S_ 32) = constantI S_ 32 0#32 := by
  dsimp only [hostOps1]
  after_results <;> rfl
private theorem hi4_fold : (StableHlo.after (hostOps1 (F := Ideal)) V (Proc.devRef .tc main_c_0) : IVec S_ 32) = constantI S_ 32 99999#32 := by
  dsimp only [hostOps1]
  after_results <;> rfl
/-- The second pair. -/
private theorem lo5_fold : (StableHlo.after (hostOps1_2 (F := Ideal)) V (Proc.devRef .tc main_c_1) : IVec S_ 32) = constantI S_ 32 0#32 := by
  dsimp only [hostOps1_2]
  after_results <;> rfl
private theorem hi5_fold : (StableHlo.after (hostOps1_2 (F := Ideal)) V (Proc.devRef .tc main_c_2) : IVec S_ 32) = constantI S_ 32 99999#32 := by
  dsimp only [hostOps1_2]
  after_results <;> rfl

/-- The clipped source indices. -/
private theorem clip4_fold :
    (StableHlo.after (hostOps1_1 (F := Ideal)) V (Proc.devRef .tc main_v2) : IVec S600000 32)
      = clipV (V (Proc.devRef .tc main_c)) (V (Proc.devRef .tc main_c_0)) (V (Proc.devRef .tc main_arg4)) := by
  dsimp only [hostOps1_1]
  after_results <;> rfl
/-- The clipped destination indices. -/
private theorem clip5_fold :
    (StableHlo.after (hostOps1_3 (F := Ideal)) V (Proc.devRef .tc main_v3) : IVec S600000 32)
      = clipV (V (Proc.devRef .tc main_c_1)) (V (Proc.devRef .tc main_c_2)) (V (Proc.devRef .tc main_arg5)) := by
  dsimp only [hostOps1_3]
  after_results <;> rfl

/-- The rows taken at the clipped source indices. -/
private theorem take4_fold :
    (StableHlo.after (hostOps1_4 (F := Ideal)) V (Proc.devRef .tc main_v4) : FVec Ideal S600000x4 .f32)
      = takeT (V (Proc.devRef .tc main_v1)) (V (Proc.devRef .tc main_v2)) := by
  dsimp only [hostOps1_4]
  after_results_simp
  simp only [StableHlo.TRef.ofBuf, StableHlo.TRef.toBuf, cast_cast_self]
  simp only [cast_eq]
  unfold takeT maskV colV wrapV
  rfl
/-- The rows taken at the clipped destination indices. -/
private theorem take5_fold :
    (StableHlo.after (hostOps1_5 (F := Ideal)) V (Proc.devRef .tc main_v5) : FVec Ideal S600000x4 .f32)
      = takeT (V (Proc.devRef .tc main_v1)) (V (Proc.devRef .tc main_v3)) := by
  dsimp only [hostOps1_5]
  after_results_simp
  simp only [StableHlo.TRef.ofBuf, StableHlo.TRef.toBuf, cast_cast_self]
  simp only [cast_eq]
  unfold takeT maskV colV wrapV
  rfl

end Folds

/-! ## Walking the fold: a buffer no operation of a stretch writes keeps its contents -/

/-- A stretch writes no buffer that is the named reference, so the reference's contents after it are those before. -/
local macro "keeps " ops:ident " at " r:ident : tactic =>
  `(tactic| (refine StableHlo.after_of_forall_not_mem (b := Proc.devRef .tc $r) _ _ (List.forall_iff_forall_mem.mp ?_)
             simp only [$ops:ident, List.Forall, StableHlo.nullary_writes, StableHlo.unary_writes, StableHlo.binary_writes,
               StableHlo.ternary_writes, Finset.mem_singleton]
             repeat' apply And.intro
             all_goals exact StableHlo.devRef_ne_of_ne (by decide)))

/-- Region 0's output table is not written between the regions. -/
private theorem tab_kept (c : Dev nD) :
    W6 (F := Ideal) m ρ c (Proc.devRef .tc main_v1) = V2 (F := Ideal) m ρ c main_v1 :=
  calc W6 (F := Ideal) m ρ c (Proc.devRef .tc main_v1)
      = W5 (F := Ideal) m ρ c (Proc.devRef .tc main_v1) := by keeps hostOps1_3 at main_v1
    _ = W4 (F := Ideal) m ρ c (Proc.devRef .tc main_v1) := by keeps hostOps1_2 at main_v1
    _ = W3 (F := Ideal) m ρ c (Proc.devRef .tc main_v1) := by keeps hostOps1_1 at main_v1
    _ = W2 (F := Ideal) m ρ c (Proc.devRef .tc main_v1) := by keeps hostOps1 at main_v1
    _ = V2 (F := Ideal) m ρ c main_v1 := rfl

/-- The source indices reach the clip as launched. -/
private theorem arg4_kept (c : Dev nD) :
    W3 (F := Ideal) m ρ c (Proc.devRef .tc main_arg4) = m ((c : Thread nD τ).loc main_arg4) :=
  calc W3 (F := Ideal) m ρ c (Proc.devRef .tc main_arg4)
      = W2 (F := Ideal) m ρ c (Proc.devRef .tc main_arg4) := by keeps hostOps1 at main_arg4
    _ = W1 (F := Ideal) m ρ c (Proc.devRef .tc main_arg4) := W2_of_ne m ρ c main_arg4 (by decide)
    _ = W0 (F := Ideal) m ρ c (Proc.devRef .tc main_arg4) := by keeps hostOps0 at main_arg4
    _ = m ((c : Thread nD τ).loc main_arg4) := rfl

/-- The destination indices reach the clip as launched. -/
private theorem arg5_kept (c : Dev nD) :
    W5 (F := Ideal) m ρ c (Proc.devRef .tc main_arg5) = m ((c : Thread nD τ).loc main_arg5) :=
  calc W5 (F := Ideal) m ρ c (Proc.devRef .tc main_arg5)
      = W4 (F := Ideal) m ρ c (Proc.devRef .tc main_arg5) := by keeps hostOps1_2 at main_arg5
    _ = W3 (F := Ideal) m ρ c (Proc.devRef .tc main_arg5) := by keeps hostOps1_1 at main_arg5
    _ = W2 (F := Ideal) m ρ c (Proc.devRef .tc main_arg5) := by keeps hostOps1 at main_arg5
    _ = W1 (F := Ideal) m ρ c (Proc.devRef .tc main_arg5) := W2_of_ne m ρ c main_arg5 (by decide)
    _ = W0 (F := Ideal) m ρ c (Proc.devRef .tc main_arg5) := by keeps hostOps0 at main_arg5
    _ = m ((c : Thread nD τ).loc main_arg5) := rfl

/-- The gathered source table at region 1's entry, as the take of region 0's output at the clipped source indices. -/
private theorem v4_term (c : Dev nD) :
    V8 (F := Ideal) m ρ c main_v4
      = takeT (V2 (F := Ideal) m ρ c main_v1)
          (clipV (constantI S_ 32 0#32) (constantI S_ 32 99999#32) (m ((c : Thread nD τ).loc main_arg4))) := by
  have idx : W6 (F := Ideal) m ρ c (Proc.devRef .tc main_v2)
      = clipV (constantI S_ 32 0#32) (constantI S_ 32 99999#32) (m ((c : Thread nD τ).loc main_arg4)) :=
    calc W6 (F := Ideal) m ρ c (Proc.devRef .tc main_v2)
        = W5 (F := Ideal) m ρ c (Proc.devRef .tc main_v2) := by keeps hostOps1_3 at main_v2
      _ = W4 (F := Ideal) m ρ c (Proc.devRef .tc main_v2) := by keeps hostOps1_2 at main_v2
      _ = clipV (W3 (F := Ideal) m ρ c (Proc.devRef .tc main_c)) (W3 (F := Ideal) m ρ c (Proc.devRef .tc main_c_0))
            (W3 (F := Ideal) m ρ c (Proc.devRef .tc main_arg4)) := clip4_fold (W3 (F := Ideal) m ρ c)
      _ = clipV (constantI S_ 32 0#32) (constantI S_ 32 99999#32) (m ((c : Thread nD τ).loc main_arg4)) := by
          rw [show W3 (F := Ideal) m ρ c (Proc.devRef .tc main_c) = constantI S_ 32 0#32 from lo4_fold (W2 (F := Ideal) m ρ c),
            show W3 (F := Ideal) m ρ c (Proc.devRef .tc main_c_0) = constantI S_ 32 99999#32 from hi4_fold (W2 (F := Ideal) m ρ c),
            arg4_kept m ρ c]
  calc V8 (F := Ideal) m ρ c main_v4
      = W7 (F := Ideal) m ρ c (Proc.devRef .tc main_v4) := by keeps hostOps1_5 at main_v4
    _ = takeT (W6 (F := Ideal) m ρ c (Proc.devRef .tc main_v1)) (W6 (F := Ideal) m ρ c (Proc.devRef .tc main_v2)) :=
          take4_fold (W6 (F := Ideal) m ρ c)
    _ = takeT (V2 (F := Ideal) m ρ c main_v1)
          (clipV (constantI S_ 32 0#32) (constantI S_ 32 99999#32) (m ((c : Thread nD τ).loc main_arg4))) := by
          rw [tab_kept m ρ c, idx]

/-- The same for the destination indices. -/
private theorem v5_term (c : Dev nD) :
    V8 (F := Ideal) m ρ c main_v5
      = takeT (V2 (F := Ideal) m ρ c main_v1)
          (clipV (constantI S_ 32 0#32) (constantI S_ 32 99999#32) (m ((c : Thread nD τ).loc main_arg5))) := by
  have tab : W7 (F := Ideal) m ρ c (Proc.devRef .tc main_v1) = V2 (F := Ideal) m ρ c main_v1 :=
    calc W7 (F := Ideal) m ρ c (Proc.devRef .tc main_v1)
        = W6 (F := Ideal) m ρ c (Proc.devRef .tc main_v1) := by keeps hostOps1_4 at main_v1
      _ = V2 (F := Ideal) m ρ c main_v1 := tab_kept m ρ c
  have idx : W7 (F := Ideal) m ρ c (Proc.devRef .tc main_v3)
      = clipV (constantI S_ 32 0#32) (constantI S_ 32 99999#32) (m ((c : Thread nD τ).loc main_arg5)) :=
    calc W7 (F := Ideal) m ρ c (Proc.devRef .tc main_v3)
        = W6 (F := Ideal) m ρ c (Proc.devRef .tc main_v3) := by keeps hostOps1_4 at main_v3
      _ = clipV (W5 (F := Ideal) m ρ c (Proc.devRef .tc main_c_1)) (W5 (F := Ideal) m ρ c (Proc.devRef .tc main_c_2))
            (W5 (F := Ideal) m ρ c (Proc.devRef .tc main_arg5)) := clip5_fold (W5 (F := Ideal) m ρ c)
      _ = clipV (constantI S_ 32 0#32) (constantI S_ 32 99999#32) (m ((c : Thread nD τ).loc main_arg5)) := by
          rw [show W5 (F := Ideal) m ρ c (Proc.devRef .tc main_c_1) = constantI S_ 32 0#32 from lo5_fold (W4 (F := Ideal) m ρ c),
            show W5 (F := Ideal) m ρ c (Proc.devRef .tc main_c_2) = constantI S_ 32 99999#32 from hi5_fold (W4 (F := Ideal) m ρ c),
            arg5_kept m ρ c]
  calc V8 (F := Ideal) m ρ c main_v5
      = takeT (W7 (F := Ideal) m ρ c (Proc.devRef .tc main_v1)) (W7 (F := Ideal) m ρ c (Proc.devRef .tc main_v3)) :=
          take5_fold (W7 (F := Ideal) m ρ c)
    _ = takeT (V2 (F := Ideal) m ρ c main_v1)
          (clipV (constantI S_ 32 0#32) (constantI S_ 32 99999#32) (m ((c : Thread nD τ).loc main_arg5))) := by
          rw [tab, idx]

/-! ## The entries -/

/-- Region 0 is entered with the node features as launched. -/
theorem entry0_arg0 (c : Dev nD) : V1 (F := Ideal) m ρ c main_arg0 = m ((c : Thread nD τ).loc main_arg0) :=
  calc V1 (F := Ideal) m ρ c main_arg0
      = W0 (F := Ideal) m ρ c (Proc.devRef .tc main_arg0) := by keeps hostOps0 at main_arg0
    _ = m ((c : Thread nD τ).loc main_arg0) := rfl

/-- Region 0 is entered with the transposed weights. -/
theorem entry0_v0 (c : Dev nD) :
    V1 (F := Ideal) m ρ c main_v0 = transpose S128x4 [1, 0] (m ((c : Thread nD τ).loc main_arg2)) transposes_S4x128_S128x4_1_0 := by
  show StableHlo.after (hostOps0 (F := Ideal)) (W0 (F := Ideal) m ρ c) (Proc.devRef .tc main_v0) = _
  dsimp only [hostOps0]
  after_results <;> rfl

/-- Region 1 is entered with the edge features as launched. -/
theorem entry1_arg1 (c : Dev nD) : V8 (F := Ideal) m ρ c main_arg1 = m ((c : Thread nD τ).loc main_arg1) :=
  calc V8 (F := Ideal) m ρ c main_arg1
      = W7 (F := Ideal) m ρ c (Proc.devRef .tc main_arg1) := by keeps hostOps1_5 at main_arg1
    _ = W6 (F := Ideal) m ρ c (Proc.devRef .tc main_arg1) := by keeps hostOps1_4 at main_arg1
    _ = W5 (F := Ideal) m ρ c (Proc.devRef .tc main_arg1) := by keeps hostOps1_3 at main_arg1
    _ = W4 (F := Ideal) m ρ c (Proc.devRef .tc main_arg1) := by keeps hostOps1_2 at main_arg1
    _ = W3 (F := Ideal) m ρ c (Proc.devRef .tc main_arg1) := by keeps hostOps1_1 at main_arg1
    _ = W2 (F := Ideal) m ρ c (Proc.devRef .tc main_arg1) := by keeps hostOps1 at main_arg1
    _ = W1 (F := Ideal) m ρ c (Proc.devRef .tc main_arg1) := W2_of_ne m ρ c main_arg1 (by decide)
    _ = W0 (F := Ideal) m ρ c (Proc.devRef .tc main_arg1) := by keeps hostOps0 at main_arg1
    _ = m ((c : Thread nD τ).loc main_arg1) := rfl

/-- Region 1 is entered with the bias as launched. -/
theorem entry1_arg3 (c : Dev nD) : V8 (F := Ideal) m ρ c main_arg3 = m ((c : Thread nD τ).loc main_arg3) :=
  calc V8 (F := Ideal) m ρ c main_arg3
      = W7 (F := Ideal) m ρ c (Proc.devRef .tc main_arg3) := by keeps hostOps1_5 at main_arg3
    _ = W6 (F := Ideal) m ρ c (Proc.devRef .tc main_arg3) := by keeps hostOps1_4 at main_arg3
    _ = W5 (F := Ideal) m ρ c (Proc.devRef .tc main_arg3) := by keeps hostOps1_3 at main_arg3
    _ = W4 (F := Ideal) m ρ c (Proc.devRef .tc main_arg3) := by keeps hostOps1_2 at main_arg3
    _ = W3 (F := Ideal) m ρ c (Proc.devRef .tc main_arg3) := by keeps hostOps1_1 at main_arg3
    _ = W2 (F := Ideal) m ρ c (Proc.devRef .tc main_arg3) := by keeps hostOps1 at main_arg3
    _ = W1 (F := Ideal) m ρ c (Proc.devRef .tc main_arg3) := W2_of_ne m ρ c main_arg3 (by decide)
    _ = W0 (F := Ideal) m ρ c (Proc.devRef .tc main_arg3) := by keeps hostOps0 at main_arg3
    _ = m ((c : Thread nD τ).loc main_arg3) := rfl

/-- Region 1 is entered with the transposed weights. -/
theorem entry1_v0 (c : Dev nD) :
    V8 (F := Ideal) m ρ c main_v0 = transpose S128x4 [1, 0] (m ((c : Thread nD τ).loc main_arg2)) transposes_S4x128_S128x4_1_0 :=
  calc V8 (F := Ideal) m ρ c main_v0
      = W7 (F := Ideal) m ρ c (Proc.devRef .tc main_v0) := by keeps hostOps1_5 at main_v0
    _ = W6 (F := Ideal) m ρ c (Proc.devRef .tc main_v0) := by keeps hostOps1_4 at main_v0
    _ = W5 (F := Ideal) m ρ c (Proc.devRef .tc main_v0) := by keeps hostOps1_3 at main_v0
    _ = W4 (F := Ideal) m ρ c (Proc.devRef .tc main_v0) := by keeps hostOps1_2 at main_v0
    _ = W3 (F := Ideal) m ρ c (Proc.devRef .tc main_v0) := by keeps hostOps1_1 at main_v0
    _ = W2 (F := Ideal) m ρ c (Proc.devRef .tc main_v0) := by keeps hostOps1 at main_v0
    -- the transposed weights are an input array of region 0: a region never writes its inputs
    _ = W1 (F := Ideal) m ρ c (Proc.devRef .tc main_v0) :=
          (W2_arr m ρ c 1).trans (((dat0 (V1 (F := Ideal) m ρ) c).arrAt_in 1 rfl _).trans (A_eq0 (V1 (F := Ideal) m ρ) c 1))
    _ = transpose S128x4 [1, 0] (m ((c : Thread nD τ).loc main_arg2)) transposes_S4x128_S128x4_1_0 := entry0_v0 m ρ c

/-- With every source index in range, the clip is the identity, no index is negative, the in-bounds mask is all
    ones, and the gathered table holds, at edge `i`, row `row (src i)` of region 0's output. -/
theorem entry1_v4 (c : Dev nD) (hs : ∀ i, InRange (m ((c : Thread nD τ).loc main_arg4) i)) :
    V8 (F := Ideal) m ρ c main_v4
      = fun i => V2 (F := Ideal) m ρ c main_v1 (ix2 (row (m ((c : Thread nD τ).loc main_arg4) (ix1 (i 0)))) (i 1)) := by
  rw [v4_term m ρ c, clipV_id _ hs]
  exact takeT_eq _ _ hs

/-- The same for the destination indices. -/
theorem entry1_v5 (c : Dev nD) (hd : ∀ i, InRange (m ((c : Thread nD τ).loc main_arg5) i)) :
    V8 (F := Ideal) m ρ c main_v5
      = fun i => V2 (F := Ideal) m ρ c main_v1 (ix2 (row (m ((c : Thread nD τ).loc main_arg5) (ix1 (i 0)))) (i 1)) := by
  rw [v5_term m ρ c, clipV_id _ hd]
  exact takeT_eq _ _ hd

end Cert.KernelIdeal.HostStretch

end
-- ==== Proof.OutValue.lean ====
import proofs.«400772_j9852654977718_3_alg».proof.Proof.NodeRegion
import proofs.«400772_j9852654977718_3_alg».proof.Proof.EdgeRegion
import proofs.«400772_j9852654977718_3_alg».proof.Proof.HostStretch
import Idealize.ShloMosaic.Lib.ValueLayout

set_option maxRecDepth 16384

noncomputable section

namespace Cert.KernelIdeal.OutValue

open Idealize.ShloMosaic Idealize.ShloMosaic.TcCoe Idealize.ShloMosaic.ValueIdx
open Idealize.SL Idealize.SL.Sem
open Cert.KernelIdeal Cert.KernelIdeal.Gen Cert.EdgeScore

/-- The score from the gathered rows of the projected node table IS the score, projecting first: the transposed weights at
    `(k, j)` are the weights at `(j, k)`, and row `row x` of the table is `∑ₖ n (row x) k · W j k`. -/
theorem edgeScore_of_table (n : NodeFeat.Idx → EReal) (e : EdgeFeat.Idx → EReal) (W : Weight.Idx → EReal) (b : BiasV.Idx → EReal)
    (src dst : EdgeIds.Idx → BitVec 32) (h : Weight.Transposes [1, 0] WeightT) :
    edgeScore e (fun i => nodeTable n (transpose WeightT [1, 0] W h) (ix2 (row (src (ix1 (i 0)))) (i 1)))
        (fun i => nodeTable n (transpose WeightT [1, 0] W h) (ix2 (row (dst (ix1 (i 0)))) (i 1)))
        (transpose WeightT [1, 0] W h) b
      = scoreK n e W b src dst := by
  funext o
  unfold edgeScore scoreK hidK nodeTable
  dsimp only
  refine congrArg Ideal.logistic (Finset.sum_congr rfl fun j _ => ?_)
  have hT : ∀ k : Fin 128, transpose WeightT [1, 0] W h (ix2 k j) = W (ix2 j k) := fun k => transpose_ix2_apply W h k j
  have hE : (∑ k : Fin 128, e (ix2 (o 0) k) * transpose WeightT [1, 0] W h (ix2 k j))
      = ∑ k : Fin 128, e (ix2 (o 0) k) * W (ix2 j k) :=
    Finset.sum_congr rfl fun k _ => congrArg₂ (· * ·) rfl (hT k)
  have hN : ∀ x : BitVec 32, (∑ k : Fin 128, n (ix2 (row x) k) * transpose WeightT [1, 0] W h (ix2 k j))
      = ∑ k : Fin 128, n (ix2 (row x) k) * W (ix2 j k) :=
    fun x => Finset.sum_congr rfl fun k _ => congrArg₂ (· * ·) rfl (hT k)
  exact congrArg₂ (· * ·)
    (congrArg₂ (· + ·) (congrArg₂ (· * ·) (congrArg₂ (· + ·) (hN _) hE) rfl) rfl)
    (congrArg₂ (· + ·) (congrArg₂ (· * ·) (congrArg₂ (· + ·) (hN _) hE) rfl) rfl)

variable (m : (ℓ : Loc nD τ sig) → Buf (Elt Ideal) ℓ) (ρ : Dev nD → PrngReg)

/-- The result array after both regions, with every index in range: the score, projecting first. -/
theorem out_value (c : Dev nD) (hs : ∀ i, InRange (m ((c : Thread nD τ).loc main_arg4) i))
    (hd : ∀ i, InRange (m ((c : Thread nD τ).loc main_arg5) i)) :
    W9 (F := Ideal) m ρ c (Proc.devRef .tc main_v6)
      = scoreK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  -- the result array is region 1's output; region 1 was entered with the gathered rows of region 0's output
  have h9 : W9 (F := Ideal) m ρ c (Proc.devRef .tc main_v6) = (dat1 (F := Ideal) (V8 m ρ) c).arrAt 5 cfg1.N :=
    W9_arr m ρ c 5
  have h2 : V2 (F := Ideal) m ρ c main_v1
      = nodeTable (m ((c : Thread nD τ).loc main_arg0))
          (transpose S128x4 [1, 0] (m ((c : Thread nD τ).loc main_arg2)) transposes_S4x128_S128x4_1_0) := by
    have hw : V2 (F := Ideal) m ρ c main_v1 = (dat0 (F := Ideal) (V1 m ρ) c).arrAt 2 cfg0.N := W2_arr m ρ c 2
    rw [hw, NodeRegion.nodeTable_array (V1 m ρ) c, HostStretch.entry0_arg0 m ρ c, HostStretch.entry0_v0 m ρ c]
  rw [h9, EdgeRegion.edgeScore_array (V8 m ρ) c, HostStretch.entry1_arg1 m ρ c, HostStretch.entry1_v4 m ρ c hs,
    HostStretch.entry1_v5 m ρ c hd, HostStretch.entry1_v0 m ρ c, HostStretch.entry1_arg3 m ρ c, h2]
  exact edgeScore_of_table _ _ _ _ _ _ _

end Cert.KernelIdeal.OutValue

end
-- ==== Proof.lean ====
/-
  The edge scorer and its reference compute one function of their arguments over the extended reals, wherever
  every feature, weight and bias is finite and every source and destination index names a node.

  The kernel projects the node table once (`n · Wᵀ`, one row per node), gathers the projected rows at the two
  index vectors, and in a second pass projects each edge's features, averages with each gathered row, adds the
  bias, multiplies the two hidden vectors entry by entry, sums the four products and applies the logistic function.
  The reference gathers the raw node rows, averages with the edge features, and projects afterwards. The two hidden
  vectors agree by distributivity of the product over the sum (Spec.lean), which on the extended reals needs the
  entries to be real numbers: the finiteness half of the precondition. The in-range half makes the kernel's clip,
  both programs' negative-index wrap and the kernel's in-bounds mask identities, so that both programs read node
  row `row (idx i)` (HostStretch.lean, RefValue.lean).

  The three frames are the generated ones (the reference's is its run with the result dropped); the idealization
  rewrote no operation, so `preserves` holds trivially.
-/
import proofs.«400772_j9852654977718_3_alg».proof.Defs
import proofs.«400772_j9852654977718_3_alg».proof.Proof.Gen.Kernel
import proofs.«400772_j9852654977718_3_alg».proof.Proof.Gen.Kernel.Frame
import proofs.«400772_j9852654977718_3_alg».proof.Proof.Gen.KernelIdeal
import proofs.«400772_j9852654977718_3_alg».proof.Proof.Gen.KernelIdeal.Frame
import proofs.«400772_j9852654977718_3_alg».proof.Proof.Gen.ReferenceIdeal
import proofs.«400772_j9852654977718_3_alg».proof.Proof.Gen.ReferenceIdeal.Run
import proofs.«400772_j9852654977718_3_alg».proof.Proof.Gen.ReferenceIdeal.Read
import proofs.«400772_j9852654977718_3_alg».proof.Proof.Gen.Pre_finite_inputs
import proofs.«400772_j9852654977718_3_alg».proof.Proof.Spec
import proofs.«400772_j9852654977718_3_alg».proof.Proof.PreFacts
import proofs.«400772_j9852654977718_3_alg».proof.Proof.RefValue
import proofs.«400772_j9852654977718_3_alg».proof.Proof.KernelRun
import proofs.«400772_j9852654977718_3_alg».proof.Proof.OutValue
import Idealize.ShloMosaic.Adequacy
import Idealize.ShloMosaic.Init

noncomputable section

namespace Cert.Proof

open Idealize.ShloMosaic Idealize.SL.Sem Cert.EdgeScore

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both idealized programs end with the score in their result array: the kernel's, projecting first (the two regions'
    arrays and the host stretch between them), the reference's, averaging first (its run, stage by stage); the two
    scores are one function when the entries are real numbers. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => scoreK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.OutRun.run_out (F := Ideal) m ρ)
    obtain ⟨-, -, -, hs, hd⟩ := Cert.PreFacts.of_pre _ _ _ _ _ _ (hpre c)
    exact ⟨(h c).1.trans (Cert.KernelIdeal.OutValue.out_value m ρ c hs hd), (h c).2⟩
  · refine (θ_run Cert.ReferenceIdeal.defs _ _).mono (fun r h c => ?_) (Cert.ReferenceIdeal.Value.run (F := Ideal) m' ρ')
    obtain ⟨hn, he, hW, hs, hd⟩ := Cert.PreFacts.of_pre _ _ _ _ _ _ (hpre c)
    refine ⟨(h c).1.trans ?_, (h c).2⟩
    rw [(hagree c).1, (hagree c).2.1, (hagree c).2.2.1, (hagree c).2.2.2.1, (hagree c).2.2.2.2.1, (hagree c).2.2.2.2.2]
    exact ((Cert.ReferenceIdeal.Read.val_main_v38_eq _ _ _ _ _ _).trans
      (Cert.ReferenceIdeal.RefValue.ref_value _ _ _ _ _ _ hs hd)).trans
      (scoreR_eq_scoreK _ _ _ _ _ _ hn he hW)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
